-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x1x4096 : Shape := ⟨3, ![8, 1, 4096]⟩
abbrev S1x4096x3 : Shape := ⟨3, ![1, 4096, 3]⟩
abbrev S1x1024x3 : Shape := ⟨3, ![1, 1024, 3]⟩
abbrev S1x1x4096 : Shape := ⟨3, ![1, 1, 4096]⟩
abbrev S1x1x1024 : Shape := ⟨3, ![1, 1, 1024]⟩
abbrev S4096x128 : Shape := ⟨2, ![4096, 128]⟩
abbrev S4096x3 : Shape := ⟨2, ![4096, 3]⟩
abbrev S1024x3 : Shape := ⟨2, ![1024, 3]⟩
abbrev S4096 : Shape := ⟨1, ![4096]⟩
abbrev S1024 : Shape := ⟨1, ![1024]⟩
abbrev S4096x1024 : Shape := ⟨2, ![4096, 1024]⟩
abbrev S4096x1 : Shape := ⟨2, ![4096, 1]⟩
abbrev S1x1024 : Shape := ⟨2, ![1, 1024]⟩
abbrev S8x4096 : Shape := ⟨2, ![8, 4096]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .local _ .vmem, ⟨0, _⟩ => ⟨S1x4096x3, .f32⟩
  | .local _ .vmem, ⟨1, _⟩ => ⟨S1x4096x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x4096, .f32⟩
  | .local _ .vmem, ⟨5, _⟩ => ⟨S1x1x4096, .f32⟩
  | .local _ .vmem, ⟨6, _⟩ => ⟨S1x1x1024, .f32⟩
  | .local _ .vmem, ⟨7, _⟩ => ⟨S1x1x1024, .f32⟩
  | .local _ .vmem, ⟨8, _⟩ => ⟨S4096x128, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_15 : BitVec 32 := 0#32
  let v44 : BitVec 1 := Scalar.cmpi .ne v43 c0_i32_15
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S4096x3_S4096 : S4096x3.Reduces [1] S4096
  reduces_S1024x3_S1024 : S1024x3.Reduces [1] S1024
  shapeCasts_S4096_S4096x1 : S4096.ShapeCasts S4096x1
  shapeCasts_S1024_S1x1024 : S1024.ShapeCasts S1x1024
  broadcasts_S4096x1_S4096x1024 : S4096x1.Broadcasts S4096x1024
  broadcasts_S1x1024_S4096x1024 : S1x1024.Broadcasts S4096x1024
  slices_S4096x1024_o0_0_S4096x128 : S4096x1024.Slices ![0, 0] S4096x128
  slices_S4096x1024_o0_128_S4096x128 : S4096x1024.Slices ![0, 128] S4096x128
  slices_S4096x1024_o0_256_S4096x128 : S4096x1024.Slices ![0, 256] S4096x128
  slices_S4096x1024_o0_384_S4096x128 : S4096x1024.Slices ![0, 384] S4096x128
  slices_S4096x1024_o0_512_S4096x128 : S4096x1024.Slices ![0, 512] S4096x128
  slices_S4096x1024_o0_640_S4096x128 : S4096x1024.Slices ![0, 640] S4096x128
  slices_S4096x1024_o0_768_S4096x128 : S4096x1024.Slices ![0, 768] S4096x128
  slices_S4096x1024_o0_896_S4096x128 : S4096x1024.Slices ![0, 896] S4096x128
  reduces_S4096x1024_S1024 : S4096x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S8x1x4096_S8x4096 : S8x1x4096.ShapeCasts S8x4096
  dot_S4096x3_S1024x3_S4096x1024_1_1_0_0_n_n_wf : DotDims.WF S4096x3 S1024x3 S4096x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x4096x3.size a
  hwx0_0 : ∀ i : grid0.Coords, EltTy.bits .f32 = 32 ∨ (Rect.block (s := S8x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S8x4096x3.size a
  hwx0_1 : ∀ i : grid0.Coords, EltTy.bits .f32 = 32 ∨ (Rect.block (s := S8x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x4096.size a
  hwx0_3 : ∀ i : grid0.Coords, EltTy.bits .f32 = 32 ∨ (Rect.block (s := S8x1x4096) S1x1x1024.size (cc0_transform_3 i) (hinb0_3 i)).WholeWords (EltTy.packing .f32)

variable [Facts₀]

def dot_S4096x3_S1024x3_S4096x1024_1_1_0_0_n_n : DotDims S4096x3 S1024x3 S4096x1024 where
  lhsContracting := [1]
  rhsContracting := [1]
  lhsNonContracting := [0]
  rhsNonContracting := [0]
  lhsBatch := []
  rhsBatch := []
  wf := dot_S4096x3_S1024x3_S4096x1024_1_1_0_0_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun _ => false | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.LibWholeBuffer.lean ====
/-
  Two facts about a buffer accessed through the rectangle that is the WHOLE buffer at zero offsets, which is how a
  kernel body that loads and stores whole staging blocks touches them:
  a load through it of contents that read `x` reads `x`, and one store through it leaves exactly its payload,
  whatever the buffer held before.
-/
import Idealize.ShloMosaic.Lib.Pipeline.FrameBody
import Idealize.ShloMosaic.Lib.Pipeline.Value

noncomputable section

namespace Idealize.ShloMosaic.WholeBuffer

open Idealize.ShloMosaic

variable {sig : RefSig} {κ : Kind} {sp : Space} {S : Shape} {e : EltTy} {Val : EltTy → Type}

/-- A load through the whole-buffer rectangle reads the contents. -/
theorem load_whole (v : View sig κ sp S e) (f : v.ty.Contents Val) {off : Fin S.rank → Nat} (hz : off = fun _ => 0)
    (inb : ∀ a, off a + S.size a ≤ S.size a) {x : S.Idx → Val e} (hx : v.read Val f = x) :
    v.readAt Val (Rect.unit off S.size inb).toLoadRect f = x := by
  subst hx
  exact (View.readAt_eq_ld v f (Rect.unit off S.size inb)).trans (View.ld_unit_zero hz inb _)

/-- One store through the whole-buffer rectangle leaves its payload, whatever was there. -/
theorem store_whole [∀ e, Nonempty (Val e)] (v : View sig κ sp S e) (f : v.ty.Contents Val) {off : Fin S.rank → Nat}
    (hz : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

end Idealize.ShloMosaic.WholeBuffer

end
-- ==== Proof.BitsFrame.Schedule.lean ====
/-
  The grid of the chamfer kernel has 32 points, point `t = 4 b + j` handling batch `b` and the `j`-th
  tile of 1024 points of the second cloud. The body branches three times on `j` alone:
  at `j = 0` it RESETS the running row minimum (a 4096 × 128 scratch) to this tile's lane-folded
  distances, at `j ≠ 0` it FOLDS this tile's into it, and at `j = 3` it EMITS the minimum over the
  128 lanes into the first output's block. This module decides the three conditions over the grid,
  says where the first output's window is idle, and names the buffers the body is called with.
-/
import proofs.«137086_g88837103551002_cont_sun_m_1114_20_alg».proof.Proof.Gen.Kernel.Frame
import proofs.«137086_g88837103551002_cont_sun_m_1114_20_alg».proof.Proof.Gen.Kernel.Skeleton
import proofs.«137086_g88837103551002_cont_sun_m_1114_20_alg».proof.Proof.LibWholeBuffer
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions on the tile index -/

/-- `j = 0`: the first tile of a batch, as the body computes it. -/
abbrev atFirst (i : grid0.Coords) : Prop :=
  Scalar.cmpi .ne (Scalar.extui (Scalar.cmpi .eq (BitVec.ofNat 32 (i 1).val) 0#32)) 0#32 = 1#1
/-- `j ≠ 0`: a later tile of a batch, as the body computes it. -/
abbrev pastFirst (i : grid0.Coords) : Prop :=
  Scalar.cmpi .ne (Scalar.extui (Scalar.cmpi .ne (BitVec.ofNat 32 (i 1).val) 0#32)) 0#32 = 1#1
/-- `j = 3`: the last tile of a batch. -/
abbrev atLast (i : grid0.Coords) : Prop := k0_cond3 i = 1#1

/-- Point `t` is a batch's first tile exactly when `t ≡ 0 (mod 4)`. -/
theorem atFirst_iff : ∀ t : Fin cfg0.N, atFirst (grid0.coords t) ↔ t.val % 4 = 0 :=
  (by decide +kernel : ∀ t : Fin grid0.N, atFirst (grid0.coords t) ↔ t.val % 4 = 0)
/-- It is a later tile exactly when `t ≢ 0 (mod 4)`. -/
theorem pastFirst_iff : ∀ t : Fin cfg0.N, pastFirst (grid0.coords t) ↔ ¬ t.val % 4 = 0 :=
  (by decide +kernel : ∀ t : Fin grid0.N, pastFirst (grid0.coords t) ↔ ¬ t.val % 4 = 0)
/-- It is the last tile exactly when `t ≡ 3 (mod 4)`. -/
theorem atLast_iff : ∀ t : Fin cfg0.N, atLast (grid0.coords t) ↔ t.val % 4 = 3 :=
  (by decide +kernel : ∀ t : Fin grid0.N, atLast (grid0.coords t) ↔ t.val % 4 = 3)

/-! ## Where the windows are idle -/

theorem live_x1 : ∀ t : Fin cfg0.N, cfg0.idle 0 (grid0.coords t) = false := by decide +kernel
theorem live_x2 : ∀ t : Fin cfg0.N, cfg0.idle 1 (grid0.coords t) = false := by decide +kernel
theorem live_d2 : ∀ t : Fin cfg0.N, cfg0.idle 3 (grid0.coords t) = false := by decide +kernel
/-- Off a batch's last tile the body stores nothing into the first output's block: the window is idle there, -/
theorem idle_d1 : ∀ t : Fin cfg0.N, ¬ atLast (grid0.coords t) → cfg0.idle 2 (grid0.coords t) = true := by decide +kernel
/-- and the pipeline does not write the block back; -/
theorem noFlush_d1 : ∀ t : Fin cfg0.N, ¬ atLast (grid0.coords t) → (cfg0.win 2).flush t = false := by decide +kernel
/-- at the last tile it is live. -/
theorem live_d1 : ∀ t : Fin cfg0.N, atLast (grid0.coords t) → cfg0.idle 2 (grid0.coords t) = false := by decide +kernel

/-! ## The buffers the body is called with at a point -/

abbrev x1M (t : Fin cfg0.N) : Memref sig .tc .vmem S1x4096x3 .f32 := win0_0.stage (cfg0.slots t 0)
abbrev x1W (t : Fin cfg0.N) : (x1M t).IsWhole := hstage0_0 ((cfg0.slots t 0).cast nbuf0_0)
abbrev x2M (t : Fin cfg0.N) : Memref sig .tc .vmem S1x1024x3 .f32 := win0_1.stage (cfg0.slots t 1)
abbrev x2W (t : Fin cfg0.N) : (x2M t).IsWhole := hstage0_1 ((cfg0.slots t 1).cast nbuf0_1)
abbrev d1M (t : Fin cfg0.N) : Memref sig .tc .vmem S1x1x4096 .f32 := win0_2.stage (cfg0.slots t 2)
abbrev d1W (t : Fin cfg0.N) : (d1M t).IsWhole := hstage0_2 ((cfg0.slots t 2).cast nbuf0_2)
abbrev d2M (t : Fin cfg0.N) : Memref sig .tc .vmem S1x1x1024 .f32 := win0_3.stage (cfg0.slots t 3)
abbrev d2W (t : Fin cfg0.N) : (d2M t).IsWhole := hstage0_3 ((cfg0.slots t 3).cast nbuf0_3)
/-- The running row minimum: the kernel's one scratch buffer, whole. -/
abbrev accM : Memref sig .tc .vmem S4096x128 .f32 := Memref.whole cc0_scratch0

/-- Every access of the body is through the whole-buffer rectangle at zero offsets. -/
theorem zero3 : (![0, 0, 0] : Fin 3 → Nat) = fun _ => 0 := funext fun a => by fin_cases a <;> rfl
theorem zero2 : (![0, 0] : Fin 2 → Nat) = fun _ => 0 := funext fun a => by fin_cases a <;> rfl

/-- The class invariant of a one-region kernel (the scoped buffers that are no staging buffer at some contents,
    the generator register at some state) with the scratch spelt as a memref owned at some contents. -/
theorem classInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Frame

end
-- ==== Proof.BitsFrame.Reset.lean ====
/-
  The body at a batch's FIRST tile (`j = 0`). It reads the two point blocks, stores this tile's column
  minima into the second output's block, and resets the running row minimum to this tile's lane-folded
  distances; the first output's block it does not touch.
-/
import proofs.«137086_g88837103551002_cont_sun_m_1114_20_alg».proof.Proof.BitsFrame.Schedule

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.WholeBuffer

set_option maxHeartbeats 1000000 in
/-- At a first tile, on whole buffers: the point blocks are read and kept, the first output's block is handed back
    as found, the second output's block ends at the column minima of the tile's distance matrix, and the scratch
    ends at its lane-folded row partial, whatever either held before. -/
theorem run_reset (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x128 .f32) (harg6 : arg6.IsWhole)
    (h1 : atFirst i) (h2 : ¬ pastFirst i) (h3 : ¬ atLast i)
    (x1 : Vec F S1x4096x3 .f32) (x2 : Vec F S1x1024x3 .f32) (o1 : Vec F S1x1x4096 .f32) (E : Set ℕ) (K : PUnit → sProp 𝕄) :
    iprop(owns (c : Thread nD τ) arg2 fullShare x1 ∗ owns (c : Thread nD τ) arg3 fullShare x2
        ∗ owns (c : Thread nD τ) arg4 fullShare o1 ∗ (∃ d, owns (c : Thread nD τ) arg5 fullShare d)
        ∗ (∃ d, owns (c : Thread nD τ) arg6 fullShare d)
        ∗ (iprop(owns (c : Thread nD τ) arg2 fullShare x1 ∗ owns (c : Thread nD τ) arg3 fullShare x2
            ∗ owns (c : Thread nD τ) arg4 fullShare o1 ∗ owns (c : Thread nD τ) arg5 fullShare (k0_pay5 x1 x2)
            ∗ owns (c : Thread nD τ) arg6 fullShare (k0_pay6 x1 x2)) -∗ K ⟨⟩))
      ⊢ wp frame (wpE (defs₀ (F := F)) Variants.none c none) E (cc0__chamfer_body i arg2 harg2 arg3 harg3 arg4 harg4 arg5 harg5 arg6 harg6) K := by
  sl_unfold [cc0__chamfer_body]
  unfold owns
  iintro ⟨⟨%f2, %hf2, H2⟩, ⟨%f3, %hf3, H3⟩, ⟨%f4, %hf4, H4⟩, ⟨%d5, %f5, -, H5⟩, ⟨%d6, %f6, -, H6⟩, Hk⟩
  sl_exec (disch := first | exact h1 | exact h2 | exact h3)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap
    · iexact H5
    ipureintro
    rw [store_whole _ _ zero3, load_whole _ _ zero3 _ hf2, load_whole _ _ zero3 _ hf3]
  · iexists _; isplitr
    swap
    · iexact H6
    ipureintro
    rw [store_whole _ _ zero2, load_whole _ _ zero3 _ hf2, load_whole _ _ zero3 _ hf3]

end Cert.Kernel.Frame

end
-- ==== Proof.BitsFrame.Fold.lean ====
/-
  The body at a MIDDLE tile of a batch (`j = 1, 2`). It reads the two point blocks, stores this tile's column
  minima into the second output's block, and folds this tile's lane-folded distances into the running row
  minimum; the first output's block it does not touch.
-/
import proofs.«137086_g88837103551002_cont_sun_m_1114_20_alg».proof.Proof.BitsFrame.Schedule

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.WholeBuffer

set_option maxHeartbeats 1000000 in
/-- At a middle tile, on whole buffers, the scratch holding `acc`: the point blocks are read and kept, the first
    output's block is handed back as found, the second output's block ends at the tile's column minima, and the scratch
    ends at the elementwise minimum of `acc` and the tile's lane-folded row partial. -/
theorem run_fold (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x128 .f32) (harg6 : arg6.IsWhole)
    (h1 : ¬ atFirst i) (h2 : pastFirst i) (h3 : ¬ atLast i)
    (x1 : Vec F S1x4096x3 .f32) (x2 : Vec F S1x1024x3 .f32) (o1 : Vec F S1x1x4096 .f32) (acc : Vec F S4096x128 .f32)
    (E : Set ℕ) (K : PUnit → sProp 𝕄) :
    iprop(owns (c : Thread nD τ) arg2 fullShare x1 ∗ owns (c : Thread nD τ) arg3 fullShare x2
        ∗ owns (c : Thread nD τ) arg4 fullShare o1 ∗ (∃ d, owns (c : Thread nD τ) arg5 fullShare d)
        ∗ owns (c : Thread nD τ) arg6 fullShare acc
        ∗ (iprop(owns (c : Thread nD τ) arg2 fullShare x1 ∗ owns (c : Thread nD τ) arg3 fullShare x2
            ∗ owns (c : Thread nD τ) arg4 fullShare o1 ∗ owns (c : Thread nD τ) arg5 fullShare (k0_pay5 x1 x2)
            ∗ owns (c : Thread nD τ) arg6 fullShare (k0_pay1 (k0_pay4 x1 x2) acc)) -∗ K ⟨⟩))
      ⊢ wp frame (wpE (defs₀ (F := F)) Variants.none c none) E (cc0__chamfer_body i arg2 harg2 arg3 harg3 arg4 harg4 arg5 harg5 arg6 harg6) K := by
  sl_unfold [cc0__chamfer_body]
  unfold owns
  iintro ⟨⟨%f2, %hf2, H2⟩, ⟨%f3, %hf3, H3⟩, ⟨%f4, %hf4, H4⟩, ⟨%d5, %f5, -, H5⟩, ⟨%f6, %hf6, H6⟩, Hk⟩
  sl_exec (disch := first | exact h1 | exact h2 | exact h3)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap
    · iexact H5
    ipureintro
    rw [store_whole _ _ zero3, load_whole _ _ zero3 _ hf2, load_whole _ _ zero3 _ hf3]
  · iexists _; isplitr
    swap
    · iexact H6
    ipureintro
    sl_unfold_run_names
    rw [store_whole _ _ zero2, load_whole _ _ zero3 _ hf2, load_whole _ _ zero3 _ hf3, load_whole _ _ zero2 _ hf6]

end Cert.Kernel.Frame

end
-- ==== Proof.BitsFrame.Emit.lean ====
/-
  The body at a batch's LAST tile (`j = 3`). It reads the two point blocks, stores this tile's column
  minima into the second output's block, folds this tile's lane-folded distances into the running row
  minimum, and then stores the minimum over the 128 lanes of that running minimum into the first output's block.
-/
import proofs.«137086_g88837103551002_cont_sun_m_1114_20_alg».proof.Proof.BitsFrame.Schedule

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.WholeBuffer

set_option maxHeartbeats 1000000 in
/-- At a last tile, on whole buffers, the scratch holding `acc`: the point blocks are read and kept, the second
    output's block ends at the tile's column minima, the scratch at the elementwise minimum of `acc` and the tile's
    lane-folded row partial, and the first output's block at the minimum over the lanes of that, whatever it held. -/
theorem run_emit (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x128 .f32) (harg6 : arg6.IsWhole)
    (h1 : ¬ atFirst i) (h2 : pastFirst i) (h3 : atLast i)
    (x1 : Vec F S1x4096x3 .f32) (x2 : Vec F S1x1024x3 .f32) (acc : Vec F S4096x128 .f32)
    (E : Set ℕ) (K : PUnit → sProp 𝕄) :
    iprop(owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare acc
        ∗ (iprop(owns (c : Thread nD τ) arg2 fullShare x1 ∗ owns (c : Thread nD τ) arg3 fullShare x2
            ∗ owns (c : Thread nD τ) arg4 fullShare (k0_pay2 (k0_pay1 (k0_pay4 x1 x2) acc))
            ∗ owns (c : Thread nD τ) arg5 fullShare (k0_pay5 x1 x2)
            ∗ owns (c : Thread nD τ) arg6 fullShare (k0_pay1 (k0_pay4 x1 x2) acc)) -∗ K ⟨⟩))
      ⊢ wp frame (wpE (defs₀ (F := F)) Variants.none c none) E (cc0__chamfer_body i arg2 harg2 arg3 harg3 arg4 harg4 arg5 harg5 arg6 harg6) K := by
  sl_unfold [cc0__chamfer_body]
  unfold owns
  iintro ⟨⟨%f2, %hf2, H2⟩, ⟨%f3, %hf3, H3⟩, ⟨%d4, %f4, -, H4⟩, ⟨%d5, %f5, -, H5⟩, ⟨%f6, %hf6, H6⟩, Hk⟩
  sl_exec (disch := first | exact h1 | exact h2 | exact h3)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    swap
    · iexact H4
    ipureintro
    sl_unfold_run_names
    rw [store_whole _ _ zero3, View.readCov_unit_zero _ zero2, load_whole _ _ zero3 _ hf2, load_whole _ _ zero3 _ hf3,
      load_whole _ _ zero2 _ hf6]
  isplitl [H5]
  · iexists _; isplitr
    swap
    · iexact H5
    ipureintro
    rw [store_whole _ _ zero3, load_whole _ _ zero3 _ hf2, load_whole _ _ zero3 _ hf3]
  · iexists _; isplitr
    swap
    · iexact H6
    ipureintro
    sl_unfold_run_names
    rw [store_whole _ _ zero2, load_whole _ _ zero3 _ hf2, load_whole _ _ zero3 _ hf3, load_whole _ _ zero2 _ hf6]

end Cert.Kernel.Frame

end
-- ==== Proof.BitsFrame.Carry.lean ====
/-
  What the kernel carries from tile to tile, the pipeline's proof data, and the frame.
  The running row minimum after point `n` is, by recursion on `n`: at a batch's first tile (`n ≡ 0 mod 4`) that tile's
  lane-folded row partial, at a later tile the elementwise minimum of what the point before left and this tile's partial.
  After each point the second output's block holds the tile's column minima; the first output's block, which the body
  stores only at a batch's last tile and the pipeline writes back only there, holds the minimum over the 128 lanes of the
  running minimum. With these the body's three runs give the library's body obligation, and the library's launch gives the
  run of the whole program and, read at the argument arrays, the frame.
-/
import proofs.«137086_g88837103551002_cont_sun_m_1114_20_alg».proof.Proof.BitsFrame.Reset
import proofs.«137086_g88837103551002_cont_sun_m_1114_20_alg».proof.Proof.BitsFrame.Fold
import proofs.«137086_g88837103551002_cont_sun_m_1114_20_alg».proof.Proof.BitsFrame.Emit

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the carried minimum -/

/-- The first cloud's block at point `t` (all 4096 points of batch `t / 4`), at its literal type. -/
abbrev x1At (c : Dev nD) (t : Fin cfg0.N) : Vec F S1x4096x3 .f32 := iblk m c 0 t
/-- The second cloud's block at point `t` (tile `t % 4` of batch `t / 4`: 1024 points), at its literal type. -/
abbrev x2At (c : Dev nD) (t : Fin cfg0.N) : Vec F S1x1024x3 .f32 := iblk m c 1 t

/-- The running row minimum (the scratch's contents) after the body at position `n`. -/
def accAt (c : Dev nD) : (n : ℕ) → n < cfg0.N → Vec F S4096x128 .f32
  | 0, hn => k0_pay6 (x1At m c ⟨0, hn⟩) (x2At m c ⟨0, hn⟩)
  | n + 1, hn =>
    if (n + 1) % 4 = 0 then k0_pay6 (x1At m c ⟨n + 1, hn⟩) (x2At m c ⟨n + 1, hn⟩)
    else k0_pay1 (k0_pay4 (x1At m c ⟨n + 1, hn⟩) (x2At m c ⟨n + 1, hn⟩)) (accAt c n (Nat.lt_of_succ_lt hn))

/-- At a batch's first tile the running minimum is reset to the tile's partial. -/
theorem accAt_first (c : Dev nD) (t : Fin cfg0.N) (h0 : t.val % 4 = 0) :
    accAt m c t.val t.isLt = k0_pay6 (x1At m c t) (x2At m c t) := by
  obtain ⟨n, hn⟩ := t
  cases n with
  | zero => rfl
  | succ n => exact if_pos h0

/-- At a later tile it is the minimum of what the point before left and the tile's partial. -/
theorem accAt_later (c : Dev nD) (t : Fin cfg0.N) (h0 : ¬ t.val % 4 = 0) :
    accAt m c t.val t.isLt
      = k0_pay1 (k0_pay4 (x1At m c t) (x2At m c t)) (accAt m c (t.val - 1) (Nat.lt_of_le_of_lt (Nat.sub_le _ _) t.isLt)) := by
  obtain ⟨n, hn⟩ := t
  cases n with
  | zero => exact absurd (Nat.zero_mod _) h0
  | succ n => exact if_neg h0

/-! ## The region invariant: the scratch at the running minimum -/

/-- Before position `n`: before the first point the class's invariant (the scratch at anything); afterwards the scratch at
    what the point before left, the generator register at some state. -/
def inv (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) accM fullShare (accAt m c n hn)) ∗ (∃ r, prngReg c r)) := rfl

theorem inv_pos (c : Dev nD) (n : ℕ) (h : n ≤ cfg0.N) (hz : n ≠ 0) :
    inv m c n h = iprop(iprop(owns (c : Thread nD τ) accM fullShare (accAt m c (n - 1) (by omega))) ∗ (∃ r, prngReg c r)) := by
  cases n with
  | zero => exact absurd rfl hz
  | succ n => rfl

/-! ## The pipeline's proof data -/

/-- On core `c`: the arrays as the region finds them; after the body at point `t` each input's buffer at its block, the
    first output's at the lane minimum of the running minimum, the second output's at the tile's column minima; the
    invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (accAt m c t.val t.isLt)
    | ⟨3, _⟩ => k0_pay5 (x1At m c t) (x2At m c t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after_x1 (c : Dev nD) (t : Fin cfg0.N) : (dats m 0 c).after 0 t = iblk m c 0 t := by dsimp only [dats]
theorem after_x2 (c : Dev nD) (t : Fin cfg0.N) : (dats m 0 c).after 1 t = iblk m c 1 t := by dsimp only [dats]
theorem after_d1 (c : Dev nD) (t : Fin cfg0.N) : (dats m 0 c).after 2 t = k0_pay2 (accAt m c t.val t.isLt) := by dsimp only [dats]
theorem after_d2 (c : Dev nD) (t : Fin cfg0.N) : (dats m 0 c).after 3 t = k0_pay5 (x1At m c t) (x2At m c t) := by dsimp only [dats]

/-- Each input's current staging buffer holds its block at every point, fetched there or not. -/
theorem before_x1 (c : Dev nD) (t : Fin cfg0.N) (d) : (dats m 0 c).before 0 t d = iblk m c 0 t :=
  before0_0_of m (dats m 0 c) (A_eq m c 0) (after_x1 m c) t d
theorem before_x2 (c : Dev nD) (t : Fin cfg0.N) (d) : (dats m 0 c).before 1 t d = iblk m c 1 t :=
  before0_1_of m (dats m 0 c) (A_eq m c 1) (after_x2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (x1M t) fullShare ((dats m 0 c).before 0 t d))
    ∗ (∃ d, owns (c : Thread nD τ) (x2M t) fullShare ((dats m 0 c).before 1 t d))
    ∗ (∃ d, owns (c : Thread nD τ) (d1M t) fullShare ((dats m 0 c).before 2 t d))
    ∗ (∃ d, owns (c : Thread nD τ) (d2M t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; the point's position in its batch selects the run; the
    invariant hands the body the scratch at what the point before left (at anything, before the first point of all, where
    the run that applies does not read it) and takes it back at this point's running minimum; off a batch's last tile the
    first output's buffer is handed back as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x1, before_x2]
  rw [show (dats m 0 c).owesAt () t.succ = (dats m 0 c).owesAt () t.castSucc from rfl]
  rw [show (dats m 0 c).Φ t.succ = inv m c (t.val + 1) t.isLt from rfl, inv_succ]
  have hN : t.val < 32 := lt_of_lt_of_eq t.isLt (show cfg0.N = 32 from N_0)
  rw [show (dats m 0 c).leavesExact 0 t = owns (c : Thread nD τ) (x1M t) fullShare ((dats m 0 c).after 0 t) from by
    unfold Dat.leavesExact; rw [live_x1 t], after_x1]
  rw [show (dats m 0 c).leavesExact 1 t = owns (c : Thread nD τ) (x2M t) fullShare ((dats m 0 c).after 1 t) from by
    unfold Dat.leavesExact; rw [live_x2 t], after_x2]
  rw [show (dats m 0 c).leavesExact 3 t = owns (c : Thread nD τ) (d2M t) fullShare ((dats m 0 c).after 3 t) from by
    unfold Dat.leavesExact; rw [live_d2 t], after_d2]
  by_cases h0 : t.val % 4 = 0
  · have h1 : atFirst (grid0.coords t) := (atFirst_iff t).mpr h0
    have h2 : ¬ pastFirst (grid0.coords t) := fun h => (pastFirst_iff t).mp h h0
    have h3 : ¬ atLast (grid0.coords t) := fun h => by have := (atLast_iff t).mp h; omega
    rw [Dat.leavesExact_idle (dats m 0 c) 2 t (idle_d1 t h3) (noFlush_d1 t h3)]
    rw [accAt_first m c t h0]
    by_cases hz : t.val = 0
    · rw [inv_castSucc m c t, inv_zero m c _ _ hz, classInv_eq]
      iintro ⟨⟨HS, Hg⟩, Ho, ⟨%d0, H0⟩, ⟨%d1, H1⟩, ⟨%d2, H2⟩, ⟨%d3, H3⟩⟩
      iapply (run_reset c (grid0.coords t) _ _ _ _ _ _ _ _ _ _ h1 h2 h3 (x1At m c t) (x2At m c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3
    · rw [inv_castSucc m c t, inv_pos m c _ _ hz]
      iintro ⟨⟨HS, Hg⟩, Ho, ⟨%d0, H0⟩, ⟨%d1, H1⟩, ⟨%d2, H2⟩, ⟨%d3, H3⟩⟩
      iapply (run_reset c (grid0.coords t) _ _ _ _ _ _ _ _ _ _ h1 h2 h3 (x1At m c t) (x2At m c t) _ Set.univ _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3
  · have h1 : ¬ atFirst (grid0.coords t) := fun h => h0 ((atFirst_iff t).mp h)
    have h2 : pastFirst (grid0.coords t) := (pastFirst_iff t).mpr h0
    have hz : t.val ≠ 0 := fun h => h0 (by rw [h])
    rw [accAt_later m c t h0]
    rw [inv_castSucc m c t, inv_pos m c _ _ hz]
    by_cases h3' : t.val % 4 = 3
    · have h3 : atLast (grid0.coords t) := (atLast_iff t).mpr h3'
      rw [show (dats m 0 c).leavesExact 2 t = owns (c : Thread nD τ) (d1M t) fullShare ((dats m 0 c).after 2 t) from by
        unfold Dat.leavesExact; rw [live_d1 t h3], after_d1, accAt_later m c t h0]
      iintro ⟨⟨HS, Hg⟩, Ho, ⟨%d0, H0⟩, ⟨%d1, H1⟩, ⟨%d2, H2⟩, ⟨%d3, H3⟩⟩
      iapply (run_emit c (grid0.coords t) _ _ _ _ _ _ _ _ _ _ h1 h2 h3 (x1At m c t) (x2At m c t) _ Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have h3 : ¬ atLast (grid0.coords t) := fun h => h3' ((atLast_iff t).mp h)
      rw [Dat.leavesExact_idle (dats m 0 c) 2 t (idle_d1 t h3) (noFlush_d1 t h3)]
      iintro ⟨⟨HS, Hg⟩, Ho, ⟨%d0, H0⟩, ⟨%d1, H1⟩, ⟨%d2, H2⟩, ⟨%d3, H3⟩⟩
      iapply (run_fold c (grid0.coords t) _ _ _ _ _ _ _ _ _ _ h1 h2 h3 (x1At m c t) (x2At m c t) _ _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the class's back: the scratch's named contents are forgotten. -/
theorem hout (c : Dev nD) : (dats m 0 c).Φ (Fin.last cfg0.N) ⊢ Pipeline.ΦA spec0 c := by
  have hN : cfg0.N = 32 := N_0
  rw [show (dats m 0 c).Φ (Fin.last cfg0.N) = inv m c (Fin.last cfg0.N).val (Nat.le_of_lt_succ (Fin.last cfg0.N).isLt) from rfl,
    inv_pos m c _ _ (by rw [Fin.val_last]; omega), classInv_eq]
  iintro ⟨HS, Hg⟩
  isplitl [HS]
  · iexists _; iexact HS
  iexact Hg

/-! ## The run and the frame -/

set_option backward.isDefEq.respectTransparency.types false in
/-- From any memory with zero counters every weakly fair execution of the program terminates, with every array of the
    pipeline at what the library computes from the proof data and every other unscoped buffer as the two reshapes after
    the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frame

end
-- ==== Proof.IdealFrame.Schedule.lean ====
/-
  The grid of the chamfer kernel has 32 points, point `t = 4 b + j` handling batch `b` and the `j`-th
  tile of 1024 points of the second cloud. The body branches three times on `j` alone:
  at `j = 0` it RESETS the running row minimum (a 4096 × 128 scratch) to this tile's lane-folded
  distances, at `j ≠ 0` it FOLDS this tile's into it, and at `j = 3` it EMITS the minimum over the
  128 lanes into the first output's block. This module decides the three conditions over the grid,
  says where the first output's window is idle, and names the buffers the body is called with.
-/
import proofs.«137086_g88837103551002_cont_sun_m_1114_20_alg».proof.Proof.Gen.KernelIdeal.Frame
import proofs.«137086_g88837103551002_cont_sun_m_1114_20_alg».proof.Proof.Gen.KernelIdeal.Skeleton
import proofs.«137086_g88837103551002_cont_sun_m_1114_20_alg».proof.Proof.LibWholeBuffer
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions on the tile index -/

/-- `j = 0`: the first tile of a batch, as the body computes it. -/
abbrev atFirst (i : grid0.Coords) : Prop :=
  Scalar.cmpi .ne (Scalar.extui (Scalar.cmpi .eq (BitVec.ofNat 32 (i 1).val) 0#32)) 0#32 = 1#1
/-- `j ≠ 0`: a later tile of a batch, as the body computes it. -/
abbrev pastFirst (i : grid0.Coords) : Prop :=
  Scalar.cmpi .ne (Scalar.extui (Scalar.cmpi .ne (BitVec.ofNat 32 (i 1).val) 0#32)) 0#32 = 1#1
/-- `j = 3`: the last tile of a batch. -/
abbrev atLast (i : grid0.Coords) : Prop := k0_cond3 i = 1#1

/-- Point `t` is a batch's first tile exactly when `t ≡ 0 (mod 4)`. -/
theorem atFirst_iff : ∀ t : Fin cfg0.N, atFirst (grid0.coords t) ↔ t.val % 4 = 0 :=
  (by decide +kernel : ∀ t : Fin grid0.N, atFirst (grid0.coords t) ↔ t.val % 4 = 0)
/-- It is a later tile exactly when `t ≢ 0 (mod 4)`. -/
theorem pastFirst_iff : ∀ t : Fin cfg0.N, pastFirst (grid0.coords t) ↔ ¬ t.val % 4 = 0 :=
  (by decide +kernel : ∀ t : Fin grid0.N, pastFirst (grid0.coords t) ↔ ¬ t.val % 4 = 0)
/-- It is the last tile exactly when `t ≡ 3 (mod 4)`. -/
theorem atLast_iff : ∀ t : Fin cfg0.N, atLast (grid0.coords t) ↔ t.val % 4 = 3 :=
  (by decide +kernel : ∀ t : Fin grid0.N, atLast (grid0.coords t) ↔ t.val % 4 = 3)

/-! ## Where the windows are idle -/

theorem live_x1 : ∀ t : Fin cfg0.N, cfg0.idle 0 (grid0.coords t) = false := by decide +kernel
theorem live_x2 : ∀ t : Fin cfg0.N, cfg0.idle 1 (grid0.coords t) = false := by decide +kernel
theorem live_d2 : ∀ t : Fin cfg0.N, cfg0.idle 3 (grid0.coords t) = false := by decide +kernel
/-- Off a batch's last tile the body stores nothing into the first output's block: the window is idle there, -/
theorem idle_d1 : ∀ t : Fin cfg0.N, ¬ atLast (grid0.coords t) → cfg0.idle 2 (grid0.coords t) = true := by decide +kernel
/-- and the pipeline does not write the block back; -/
theorem noFlush_d1 : ∀ t : Fin cfg0.N, ¬ atLast (grid0.coords t) → (cfg0.win 2).flush t = false := by decide +kernel
/-- at the last tile it is live. -/
theorem live_d1 : ∀ t : Fin cfg0.N, atLast (grid0.coords t) → cfg0.idle 2 (grid0.coords t) = false := by decide +kernel

/-! ## The buffers the body is called with at a point -/

abbrev x1M (t : Fin cfg0.N) : Memref sig .tc .vmem S1x4096x3 .f32 := win0_0.stage (cfg0.slots t 0)
abbrev x1W (t : Fin cfg0.N) : (x1M t).IsWhole := hstage0_0 ((cfg0.slots t 0).cast nbuf0_0)
abbrev x2M (t : Fin cfg0.N) : Memref sig .tc .vmem S1x1024x3 .f32 := win0_1.stage (cfg0.slots t 1)
abbrev x2W (t : Fin cfg0.N) : (x2M t).IsWhole := hstage0_1 ((cfg0.slots t 1).cast nbuf0_1)
abbrev d1M (t : Fin cfg0.N) : Memref sig .tc .vmem S1x1x4096 .f32 := win0_2.stage (cfg0.slots t 2)
abbrev d1W (t : Fin cfg0.N) : (d1M t).IsWhole := hstage0_2 ((cfg0.slots t 2).cast nbuf0_2)
abbrev d2M (t : Fin cfg0.N) : Memref sig .tc .vmem S1x1x1024 .f32 := win0_3.stage (cfg0.slots t 3)
abbrev d2W (t : Fin cfg0.N) : (d2M t).IsWhole := hstage0_3 ((cfg0.slots t 3).cast nbuf0_3)
/-- The running row minimum: the kernel's one scratch buffer, whole. -/
abbrev accM : Memref sig .tc .vmem S4096x128 .f32 := Memref.whole cc0_scratch0

/-- Every access of the body is through the whole-buffer rectangle at zero offsets. -/
theorem zero3 : (![0, 0, 0] : Fin 3 → Nat) = fun _ => 0 := funext fun a => by fin_cases a <;> rfl
theorem zero2 : (![0, 0] : Fin 2 → Nat) = fun _ => 0 := funext fun a => by fin_cases a <;> rfl

/-- The class invariant of a one-region kernel (the scoped buffers that are no staging buffer at some contents,
    the generator register at some state) with the scratch spelt as a memref owned at some contents. -/
theorem classInv_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Frame

end
-- ==== Proof.IdealFrame.Reset.lean ====
/-
  The body at a batch's FIRST tile (`j = 0`). It reads the two point blocks, stores this tile's column
  minima into the second output's block, and resets the running row minimum to this tile's lane-folded
  distances; the first output's block it does not touch.
-/
import proofs.«137086_g88837103551002_cont_sun_m_1114_20_alg».proof.Proof.IdealFrame.Schedule

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.WholeBuffer

set_option maxHeartbeats 1000000 in
/-- At a first tile, on whole buffers: the point blocks are read and kept, the first output's block is handed back
    as found, the second output's block ends at the column minima of the tile's distance matrix, and the scratch
    ends at its lane-folded row partial, whatever either held before. -/
theorem run_reset (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x128 .f32) (harg6 : arg6.IsWhole)
    (h1 : atFirst i) (h2 : ¬ pastFirst i) (h3 : ¬ atLast i)
    (x1 : Vec F S1x4096x3 .f32) (x2 : Vec F S1x1024x3 .f32) (o1 : Vec F S1x1x4096 .f32) (E : Set ℕ) (K : PUnit → sProp 𝕄) :
    iprop(owns (c : Thread nD τ) arg2 fullShare x1 ∗ owns (c : Thread nD τ) arg3 fullShare x2
        ∗ owns (c : Thread nD τ) arg4 fullShare o1 ∗ (∃ d, owns (c : Thread nD τ) arg5 fullShare d)
        ∗ (∃ d, owns (c : Thread nD τ) arg6 fullShare d)
        ∗ (iprop(owns (c : Thread nD τ) arg2 fullShare x1 ∗ owns (c : Thread nD τ) arg3 fullShare x2
            ∗ owns (c : Thread nD τ) arg4 fullShare o1 ∗ owns (c : Thread nD τ) arg5 fullShare (k0_pay5 x1 x2)
            ∗ owns (c : Thread nD τ) arg6 fullShare (k0_pay6 x1 x2)) -∗ K ⟨⟩))
      ⊢ wp frame (wpE (defs₀ (F := F)) Variants.none c none) E (cc0__chamfer_body i arg2 harg2 arg3 harg3 arg4 harg4 arg5 harg5 arg6 harg6) K := by
  sl_unfold [cc0__chamfer_body]
  unfold owns
  iintro ⟨⟨%f2, %hf2, H2⟩, ⟨%f3, %hf3, H3⟩, ⟨%f4, %hf4, H4⟩, ⟨%d5, %f5, -, H5⟩, ⟨%d6, %f6, -, H6⟩, Hk⟩
  sl_exec (disch := first | exact h1 | exact h2 | exact h3)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap
    · iexact H5
    ipureintro
    rw [store_whole _ _ zero3, load_whole _ _ zero3 _ hf2, load_whole _ _ zero3 _ hf3]
  · iexists _; isplitr
    swap
    · iexact H6
    ipureintro
    rw [store_whole _ _ zero2, load_whole _ _ zero3 _ hf2, load_whole _ _ zero3 _ hf3]

end Cert.KernelIdeal.Frame

end
-- ==== Proof.IdealFrame.Fold.lean ====
/-
  The body at a MIDDLE tile of a batch (`j = 1, 2`). It reads the two point blocks, stores this tile's column
  minima into the second output's block, and folds this tile's lane-folded distances into the running row
  minimum; the first output's block it does not touch.
-/
import proofs.«137086_g88837103551002_cont_sun_m_1114_20_alg».proof.Proof.IdealFrame.Schedule

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.WholeBuffer

set_option maxHeartbeats 1000000 in
/-- At a middle tile, on whole buffers, the scratch holding `acc`: the point blocks are read and kept, the first
    output's block is handed back as found, the second output's block ends at the tile's column minima, and the scratch
    ends at the elementwise minimum of `acc` and the tile's lane-folded row partial. -/
theorem run_fold (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x128 .f32) (harg6 : arg6.IsWhole)
    (h1 : ¬ atFirst i) (h2 : pastFirst i) (h3 : ¬ atLast i)
    (x1 : Vec F S1x4096x3 .f32) (x2 : Vec F S1x1024x3 .f32) (o1 : Vec F S1x1x4096 .f32) (acc : Vec F S4096x128 .f32)
    (E : Set ℕ) (K : PUnit → sProp 𝕄) :
    iprop(owns (c : Thread nD τ) arg2 fullShare x1 ∗ owns (c : Thread nD τ) arg3 fullShare x2
        ∗ owns (c : Thread nD τ) arg4 fullShare o1 ∗ (∃ d, owns (c : Thread nD τ) arg5 fullShare d)
        ∗ owns (c : Thread nD τ) arg6 fullShare acc
        ∗ (iprop(owns (c : Thread nD τ) arg2 fullShare x1 ∗ owns (c : Thread nD τ) arg3 fullShare x2
            ∗ owns (c : Thread nD τ) arg4 fullShare o1 ∗ owns (c : Thread nD τ) arg5 fullShare (k0_pay5 x1 x2)
            ∗ owns (c : Thread nD τ) arg6 fullShare (k0_pay1 (k0_pay4 x1 x2) acc)) -∗ K ⟨⟩))
      ⊢ wp frame (wpE (defs₀ (F := F)) Variants.none c none) E (cc0__chamfer_body i arg2 harg2 arg3 harg3 arg4 harg4 arg5 harg5 arg6 harg6) K := by
  sl_unfold [cc0__chamfer_body]
  unfold owns
  iintro ⟨⟨%f2, %hf2, H2⟩, ⟨%f3, %hf3, H3⟩, ⟨%f4, %hf4, H4⟩, ⟨%d5, %f5, -, H5⟩, ⟨%f6, %hf6, H6⟩, Hk⟩
  sl_exec (disch := first | exact h1 | exact h2 | exact h3)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    · ipureintro; exact hf4
    · iexact H4
  isplitl [H5]
  · iexists _; isplitr
    swap
    · iexact H5
    ipureintro
    rw [store_whole _ _ zero3, load_whole _ _ zero3 _ hf2, load_whole _ _ zero3 _ hf3]
  · iexists _; isplitr
    swap
    · iexact H6
    ipureintro
    sl_unfold_run_names
    rw [store_whole _ _ zero2, load_whole _ _ zero3 _ hf2, load_whole _ _ zero3 _ hf3, load_whole _ _ zero2 _ hf6]

end Cert.KernelIdeal.Frame

end
-- ==== Proof.IdealFrame.Emit.lean ====
/-
  The body at a batch's LAST tile (`j = 3`). It reads the two point blocks, stores this tile's column
  minima into the second output's block, folds this tile's lane-folded distances into the running row
  minimum, and then stores the minimum over the 128 lanes of that running minimum into the first output's block.
-/
import proofs.«137086_g88837103551002_cont_sun_m_1114_20_alg».proof.Proof.IdealFrame.Schedule

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.WholeBuffer

set_option maxHeartbeats 1000000 in
/-- At a last tile, on whole buffers, the scratch holding `acc`: the point blocks are read and kept, the second
    output's block ends at the tile's column minima, the scratch at the elementwise minimum of `acc` and the tile's
    lane-folded row partial, and the first output's block at the minimum over the lanes of that, whatever it held. -/
theorem run_emit (c : Dev nD) (i : grid0.Coords) (arg2 : Memref sig .tc .vmem S1x4096x3 .f32) (harg2 : arg2.IsWhole) (arg3 : Memref sig .tc .vmem S1x1024x3 .f32) (harg3 : arg3.IsWhole) (arg4 : Memref sig .tc .vmem S1x1x4096 .f32) (harg4 : arg4.IsWhole) (arg5 : Memref sig .tc .vmem S1x1x1024 .f32) (harg5 : arg5.IsWhole) (arg6 : Memref sig .tc .vmem S4096x128 .f32) (harg6 : arg6.IsWhole)
    (h1 : ¬ atFirst i) (h2 : pastFirst i) (h3 : atLast i)
    (x1 : Vec F S1x4096x3 .f32) (x2 : Vec F S1x1024x3 .f32) (acc : Vec F S4096x128 .f32)
    (E : Set ℕ) (K : PUnit → sProp 𝕄) :
    iprop(owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare acc
        ∗ (iprop(owns (c : Thread nD τ) arg2 fullShare x1 ∗ owns (c : Thread nD τ) arg3 fullShare x2
            ∗ owns (c : Thread nD τ) arg4 fullShare (k0_pay2 (k0_pay1 (k0_pay4 x1 x2) acc))
            ∗ owns (c : Thread nD τ) arg5 fullShare (k0_pay5 x1 x2)
            ∗ owns (c : Thread nD τ) arg6 fullShare (k0_pay1 (k0_pay4 x1 x2) acc)) -∗ K ⟨⟩))
      ⊢ wp frame (wpE (defs₀ (F := F)) Variants.none c none) E (cc0__chamfer_body i arg2 harg2 arg3 harg3 arg4 harg4 arg5 harg5 arg6 harg6) K := by
  sl_unfold [cc0__chamfer_body]
  unfold owns
  iintro ⟨⟨%f2, %hf2, H2⟩, ⟨%f3, %hf3, H3⟩, ⟨%d4, %f4, -, H4⟩, ⟨%d5, %f5, -, H5⟩, ⟨%f6, %hf6, H6⟩, Hk⟩
  sl_exec (disch := first | exact h1 | exact h2 | exact h3)
  sl_step
  iapply Hk
  isplitl [H2]
  · iexists _; isplitr
    · ipureintro; exact hf2
    · iexact H2
  isplitl [H3]
  · iexists _; isplitr
    · ipureintro; exact hf3
    · iexact H3
  isplitl [H4]
  · iexists _; isplitr
    swap
    · iexact H4
    ipureintro
    sl_unfold_run_names
    rw [store_whole _ _ zero3, View.readCov_unit_zero _ zero2, load_whole _ _ zero3 _ hf2, load_whole _ _ zero3 _ hf3,
      load_whole _ _ zero2 _ hf6]
  isplitl [H5]
  · iexists _; isplitr
    swap
    · iexact H5
    ipureintro
    rw [store_whole _ _ zero3, load_whole _ _ zero3 _ hf2, load_whole _ _ zero3 _ hf3]
  · iexists _; isplitr
    swap
    · iexact H6
    ipureintro
    sl_unfold_run_names
    rw [store_whole _ _ zero2, load_whole _ _ zero3 _ hf2, load_whole _ _ zero3 _ hf3, load_whole _ _ zero2 _ hf6]

end Cert.KernelIdeal.Frame

end
-- ==== Proof.IdealFrame.Carry.lean ====
/-
  What the kernel carries from tile to tile, the pipeline's proof data, and the frame.
  The running row minimum after point `n` is, by recursion on `n`: at a batch's first tile (`n ≡ 0 mod 4`) that tile's
  lane-folded row partial, at a later tile the elementwise minimum of what the point before left and this tile's partial.
  After each point the second output's block holds the tile's column minima; the first output's block, which the body
  stores only at a batch's last tile and the pipeline writes back only there, holds the minimum over the 128 lanes of the
  running minimum. With these the body's three runs give the library's body obligation, and the library's launch gives the
  run of the whole program and, read at the argument arrays, the frame.
-/
import proofs.«137086_g88837103551002_cont_sun_m_1114_20_alg».proof.Proof.IdealFrame.Reset
import proofs.«137086_g88837103551002_cont_sun_m_1114_20_alg».proof.Proof.IdealFrame.Fold
import proofs.«137086_g88837103551002_cont_sun_m_1114_20_alg».proof.Proof.IdealFrame.Emit

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the carried minimum -/

/-- The first cloud's block at point `t` (all 4096 points of batch `t / 4`), at its literal type. -/
abbrev x1At (c : Dev nD) (t : Fin cfg0.N) : Vec F S1x4096x3 .f32 := iblk m c 0 t
/-- The second cloud's block at point `t` (tile `t % 4` of batch `t / 4`: 1024 points), at its literal type. -/
abbrev x2At (c : Dev nD) (t : Fin cfg0.N) : Vec F S1x1024x3 .f32 := iblk m c 1 t

/-- The running row minimum (the scratch's contents) after the body at position `n`. -/
def accAt (c : Dev nD) : (n : ℕ) → n < cfg0.N → Vec F S4096x128 .f32
  | 0, hn => k0_pay6 (x1At m c ⟨0, hn⟩) (x2At m c ⟨0, hn⟩)
  | n + 1, hn =>
    if (n + 1) % 4 = 0 then k0_pay6 (x1At m c ⟨n + 1, hn⟩) (x2At m c ⟨n + 1, hn⟩)
    else k0_pay1 (k0_pay4 (x1At m c ⟨n + 1, hn⟩) (x2At m c ⟨n + 1, hn⟩)) (accAt c n (Nat.lt_of_succ_lt hn))

/-- At a batch's first tile the running minimum is reset to the tile's partial. -/
theorem accAt_first (c : Dev nD) (t : Fin cfg0.N) (h0 : t.val % 4 = 0) :
    accAt m c t.val t.isLt = k0_pay6 (x1At m c t) (x2At m c t) := by
  obtain ⟨n, hn⟩ := t
  cases n with
  | zero => rfl
  | succ n => exact if_pos h0

/-- At a later tile it is the minimum of what the point before left and the tile's partial. -/
theorem accAt_later (c : Dev nD) (t : Fin cfg0.N) (h0 : ¬ t.val % 4 = 0) :
    accAt m c t.val t.isLt
      = k0_pay1 (k0_pay4 (x1At m c t) (x2At m c t)) (accAt m c (t.val - 1) (Nat.lt_of_le_of_lt (Nat.sub_le _ _) t.isLt)) := by
  obtain ⟨n, hn⟩ := t
  cases n with
  | zero => exact absurd (Nat.zero_mod _) h0
  | succ n => exact if_neg h0

/-! ## The region invariant: the scratch at the running minimum -/

/-- Before position `n`: before the first point the class's invariant (the scratch at anything); afterwards the scratch at
    what the point before left, the generator register at some state. -/
def inv (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) accM fullShare (accAt m c n hn)) ∗ (∃ r, prngReg c r)) := rfl

theorem inv_pos (c : Dev nD) (n : ℕ) (h : n ≤ cfg0.N) (hz : n ≠ 0) :
    inv m c n h = iprop(iprop(owns (c : Thread nD τ) accM fullShare (accAt m c (n - 1) (by omega))) ∗ (∃ r, prngReg c r)) := by
  cases n with
  | zero => exact absurd rfl hz
  | succ n => rfl

/-! ## The pipeline's proof data -/

/-- On core `c`: the arrays as the region finds them; after the body at point `t` each input's buffer at its block, the
    first output's at the lane minimum of the running minimum, the second output's at the tile's column minima; the
    invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (accAt m c t.val t.isLt)
    | ⟨3, _⟩ => k0_pay5 (x1At m c t) (x2At m c t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after_x1 (c : Dev nD) (t : Fin cfg0.N) : (dats m 0 c).after 0 t = iblk m c 0 t := by dsimp only [dats]
theorem after_x2 (c : Dev nD) (t : Fin cfg0.N) : (dats m 0 c).after 1 t = iblk m c 1 t := by dsimp only [dats]
theorem after_d1 (c : Dev nD) (t : Fin cfg0.N) : (dats m 0 c).after 2 t = k0_pay2 (accAt m c t.val t.isLt) := by dsimp only [dats]
theorem after_d2 (c : Dev nD) (t : Fin cfg0.N) : (dats m 0 c).after 3 t = k0_pay5 (x1At m c t) (x2At m c t) := by dsimp only [dats]

/-- Each input's current staging buffer holds its block at every point, fetched there or not. -/
theorem before_x1 (c : Dev nD) (t : Fin cfg0.N) (d) : (dats m 0 c).before 0 t d = iblk m c 0 t :=
  before0_0_of m (dats m 0 c) (A_eq m c 0) (after_x1 m c) t d
theorem before_x2 (c : Dev nD) (t : Fin cfg0.N) (d) : (dats m 0 c).before 1 t d = iblk m c 1 t :=
  before0_1_of m (dats m 0 c) (A_eq m c 1) (after_x2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (x1M t) fullShare ((dats m 0 c).before 0 t d))
    ∗ (∃ d, owns (c : Thread nD τ) (x2M t) fullShare ((dats m 0 c).before 1 t d))
    ∗ (∃ d, owns (c : Thread nD τ) (d1M t) fullShare ((dats m 0 c).before 2 t d))
    ∗ (∃ d, owns (c : Thread nD τ) (d2M t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; the point's position in its batch selects the run; the
    invariant hands the body the scratch at what the point before left (at anything, before the first point of all, where
    the run that applies does not read it) and takes it back at this point's running minimum; off a batch's last tile the
    first output's buffer is handed back as it was found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x1, before_x2]
  rw [show (dats m 0 c).owesAt () t.succ = (dats m 0 c).owesAt () t.castSucc from rfl]
  rw [show (dats m 0 c).Φ t.succ = inv m c (t.val + 1) t.isLt from rfl, inv_succ]
  have hN : t.val < 32 := lt_of_lt_of_eq t.isLt (show cfg0.N = 32 from N_0)
  rw [show (dats m 0 c).leavesExact 0 t = owns (c : Thread nD τ) (x1M t) fullShare ((dats m 0 c).after 0 t) from by
    unfold Dat.leavesExact; rw [live_x1 t], after_x1]
  rw [show (dats m 0 c).leavesExact 1 t = owns (c : Thread nD τ) (x2M t) fullShare ((dats m 0 c).after 1 t) from by
    unfold Dat.leavesExact; rw [live_x2 t], after_x2]
  rw [show (dats m 0 c).leavesExact 3 t = owns (c : Thread nD τ) (d2M t) fullShare ((dats m 0 c).after 3 t) from by
    unfold Dat.leavesExact; rw [live_d2 t], after_d2]
  by_cases h0 : t.val % 4 = 0
  · have h1 : atFirst (grid0.coords t) := (atFirst_iff t).mpr h0
    have h2 : ¬ pastFirst (grid0.coords t) := fun h => (pastFirst_iff t).mp h h0
    have h3 : ¬ atLast (grid0.coords t) := fun h => by have := (atLast_iff t).mp h; omega
    rw [Dat.leavesExact_idle (dats m 0 c) 2 t (idle_d1 t h3) (noFlush_d1 t h3)]
    rw [accAt_first m c t h0]
    by_cases hz : t.val = 0
    · rw [inv_castSucc m c t, inv_zero m c _ _ hz, classInv_eq]
      iintro ⟨⟨HS, Hg⟩, Ho, ⟨%d0, H0⟩, ⟨%d1, H1⟩, ⟨%d2, H2⟩, ⟨%d3, H3⟩⟩
      iapply (run_reset c (grid0.coords t) _ _ _ _ _ _ _ _ _ _ h1 h2 h3 (x1At m c t) (x2At m c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3
    · rw [inv_castSucc m c t, inv_pos m c _ _ hz]
      iintro ⟨⟨HS, Hg⟩, Ho, ⟨%d0, H0⟩, ⟨%d1, H1⟩, ⟨%d2, H2⟩, ⟨%d3, H3⟩⟩
      iapply (run_reset c (grid0.coords t) _ _ _ _ _ _ _ _ _ _ h1 h2 h3 (x1At m c t) (x2At m c t) _ Set.univ _)
      isplitl [H0]; · iexact H0
      isplitl [H1]; · iexact H1
      isplitl [H2]; · iexact H2
      isplitl [H3]; · iexists _; iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3
  · have h1 : ¬ atFirst (grid0.coords t) := fun h => h0 ((atFirst_iff t).mp h)
    have h2 : pastFirst (grid0.coords t) := (pastFirst_iff t).mpr h0
    have hz : t.val ≠ 0 := fun h => h0 (by rw [h])
    rw [accAt_later m c t h0]
    rw [inv_castSucc m c t, inv_pos m c _ _ hz]
    by_cases h3' : t.val % 4 = 3
    · have h3 : atLast (grid0.coords t) := (atLast_iff t).mpr h3'
      rw [show (dats m 0 c).leavesExact 2 t = owns (c : Thread nD τ) (d1M t) fullShare ((dats m 0 c).after 2 t) from by
        unfold Dat.leavesExact; rw [live_d1 t h3], after_d1, accAt_later m c t h0]
      iintro ⟨⟨HS, Hg⟩, Ho, ⟨%d0, H0⟩, ⟨%d1, H1⟩, ⟨%d2, H2⟩, ⟨%d3, H3⟩⟩
      iapply (run_emit c (grid0.coords t) _ _ _ _ _ _ _ _ _ _ h1 h2 h3 (x1At m c t) (x2At m c t) _ Set.univ _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · have h3 : ¬ atLast (grid0.coords t) := fun h => h3' ((atLast_iff t).mp h)
      rw [Dat.leavesExact_idle (dats m 0 c) 2 t (idle_d1 t h3) (noFlush_d1 t h3)]
      iintro ⟨⟨HS, Hg⟩, Ho, ⟨%d0, H0⟩, ⟨%d1, H1⟩, ⟨%d2, H2⟩, ⟨%d3, H3⟩⟩
      iapply (run_fold c (grid0.coords t) _ _ _ _ _ _ _ _ _ _ h1 h2 h3 (x1At m c t) (x2At m c t) _ _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexists _; iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the class's back: the scratch's named contents are forgotten. -/
theorem hout (c : Dev nD) : (dats m 0 c).Φ (Fin.last cfg0.N) ⊢ Pipeline.ΦA spec0 c := by
  have hN : cfg0.N = 32 := N_0
  rw [show (dats m 0 c).Φ (Fin.last cfg0.N) = inv m c (Fin.last cfg0.N).val (Nat.le_of_lt_succ (Fin.last cfg0.N).isLt) from rfl,
    inv_pos m c _ _ (by rw [Fin.val_last]; omega), classInv_eq]
  iintro ⟨HS, Hg⟩
  isplitl [HS]
  · iexists _; iexact HS
  iexact Hg

/-! ## The run and the frame -/

set_option backward.isDefEq.respectTransparency.types false in
/-- From any memory with zero counters every weakly fair execution of the program terminates, with every array of the
    pipeline at what the library computes from the proof data and every other unscoped buffer as the two reshapes after
    the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frame

end
-- ==== Proof.Spec.lean ====
/-
  The chamfer distance of two batched point clouds `x, y : [8, 4096, 3]`, over the extended reals.
  For batch `b`, point `n` of the first cloud and point `m` of the second, the squared distance is taken as
  `|x_n|² + |y_m|² − 2 ⟨x_n, y_m⟩` (three coordinates each), and the two results are, for every point of one cloud, the
  minimum of that over the points of the other — each minimum started from the word of +∞, which is kept as a word: both
  programs start from the same one, and nothing here needs its value.
  Also here: a minimum over 4096 points taken 128 lanes at a time — four tiles of 1024, each folded eight lanes-blocks
  deep by a chain of binary minima, the four tiles chained again, and only then the 128 lanes reduced — is the minimum
  over the 4096 points. Only that `min` is associative, commutative and idempotent is used.
-/
import Idealize.ShloMosaic.Lib.ValueIdx
import Mathlib.Order.Lattice
import Mathlib.Data.Finset.Fold
import Mathlib.Data.Fin.Basic

noncomputable section

open scoped BigOperators

namespace Cert.Chamfer

open Idealize.ShloMosaic Idealize.ShloMosaic.ValueIdx

/-- A batch of point clouds at the ideal instance. -/
abbrev Clouds : Type := FVec Ideal ⟨3, ![8, 4096, 3]⟩ .f32

/-- The words of `2.0` and of `+∞`, as the ideal instance reads them. -/
abbrev two : EReal := Ideal.ofBits .f32 0x40000000#32
abbrev inf : EReal := Ideal.ofBits .f32 0x7F800000#32

/-- `|x_n|²` in batch `b`. -/
def sqNorm (x : Clouds) (b : Fin 8) (n : Fin 4096) : EReal := ∑ d : Fin 3, x (ix3 b n d) * x (ix3 b n d)
/-- `⟨x_n, y_m⟩` in batch `b`. -/
def inner (x y : Clouds) (b : Fin 8) (n m : Fin 4096) : EReal := ∑ d : Fin 3, x (ix3 b n d) * y (ix3 b m d)
/-- The squared distance between point `n` of `x` and point `m` of `y` in batch `b`, as both programs compute it. -/
def pd (x y : Clouds) (b : Fin 8) (n m : Fin 4096) : EReal := (sqNorm x b n + sqNorm y b m) - two * inner x y b n m

/-- For each point of the first cloud, the squared distance to its nearest point of the second. -/
def nearest1 (x y : Clouds) (b : Fin 8) (n : Fin 4096) : EReal :=
  (Finset.univ : Finset (Fin 4096)).fold min inf fun m => pd x y b n m
/-- For each point of the second cloud, the squared distance to its nearest point of the first. -/
def nearest2 (x y : Clouds) (b : Fin 8) (m : Fin 4096) : EReal :=
  (Finset.univ : Finset (Fin 4096)).fold min inf fun n => pd x y b n m

/-! ## A minimum taken lane-tile by lane-tile -/

section Regroup

variable {α : Type*} [LinearOrder α]

/-- Eight values folded by a chain of binary minima, first to last. -/
def fold8 (f : Fin 8 → α) : α := min (min (min (min (min (min (min (f 0) (f 1)) (f 2)) (f 3)) (f 4)) (f 5)) (f 6)) (f 7)
/-- Four values folded the same way. -/
def fold4 (f : Fin 4 → α) : α := min (min (min (f 0) (f 1)) (f 2)) (f 3)

theorem le_fold8 (f : Fin 8 → α) (z : α) : z ≤ fold8 f ↔ ∀ k, z ≤ f k := by
  unfold fold8; simp only [le_min_iff]
  constructor
  · rintro ⟨⟨⟨⟨⟨⟨⟨h0, h1⟩, h2⟩, h3⟩, h4⟩, h5⟩, h6⟩, h7⟩ k
    fin_cases k <;> assumption
  · intro h; exact ⟨⟨⟨⟨⟨⟨⟨h 0, h 1⟩, h 2⟩, h 3⟩, h 4⟩, h 5⟩, h 6⟩, h 7⟩

theorem le_fold4 (f : Fin 4 → α) (z : α) : z ≤ fold4 f ↔ ∀ j, z ≤ f j := by
  unfold fold4; simp only [le_min_iff]
  constructor
  · rintro ⟨⟨⟨h0, h1⟩, h2⟩, h3⟩ j
    fin_cases j <;> assumption
  · intro h; exact ⟨⟨⟨h 0, h 1⟩, h 2⟩, h 3⟩

/-- Position `1024 j + 128 k + l` of 4096: lane `l` of lane-block `k` of tile `j`. -/
def pos (j : Fin 4) (k : Fin 8) (l : Fin 128) : Fin 4096 := ⟨1024 * j.val + 128 * k.val + l.val, by omega⟩

/-- Every position is some lane of some lane-block of some tile. -/
theorem exists_pos (p : Fin 4096) : ∃ j k l, pos j k l = p :=
  ⟨⟨p.val / 1024, by omega⟩, ⟨p.val % 1024 / 128, by omega⟩, ⟨p.val % 128, by omega⟩, Fin.ext (by simp only [pos]; omega)⟩

/-- THE REGROUPING. The minimum from `a` over the 128 lanes of the four tiles' eightfold lane-block minima, chained, is the
    minimum from `a` over all 4096 positions. -/
theorem fold_lanes_tiles (a : α) (g : Fin 4096 → α) :
    ((Finset.univ : Finset (Fin 128)).fold min a fun l => fold4 fun j => fold8 fun k => g (pos j k l))
      = (Finset.univ : Finset (Fin 4096)).fold min a g := by
  refine eq_of_forall_le_iff fun z => ?_
  rw [Finset.le_fold_min, Finset.le_fold_min]
  refine and_congr Iff.rfl ⟨fun h p _ => ?_, fun h l _ => ?_⟩
  · obtain ⟨j, k, l, rfl⟩ := exists_pos p
    exact (le_fold8 _ z).mp ((le_fold4 _ z).mp (h l (Finset.mem_univ _)) j) k
  · exact (le_fold4 _ z).mpr fun j => (le_fold8 _ z).mpr fun k => h _ (Finset.mem_univ _)

end Regroup

end Cert.Chamfer

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.LibMinReduce.lean ====
/-
  A float minimum-reduction over one axis, read at the extended reals at an index given by coordinates: the fold of `min`
  from the accumulator's value over that axis's coordinates. For a kernel's lane reduction over the columns or over the rows
  of a matrix, and for the host's `reduce` with a minimum body over the last or the middle axis of a rank-3 array.
-/
import Idealize.ShloMosaic.Lib.ValueIdx
import Idealize.ShloMosaic.PureOps.Ideal.Laws

namespace Idealize.ShloMosaic.ValueIdx

open Idealize.ShloMosaic

/-- A float `multi_reduction <minimumf>` over one axis at the extended reals: the fold of `min` from the accumulator's value
    over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- Over the COLUMNS of an `[a, b]` matrix: in row `r`, the minimum of that row. -/
theorem multiReduction_min_cols_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (r : Fin a) :
    multiReduction .minimumf [1] ⟨1, ![a]⟩ src acc h hφ hacc (ix1 r)
      = (Finset.univ : Finset (Fin b)).fold min (Ideal.ofBits .f32 acc) fun c => src (ix2 r c) :=
  (multiReduction_minimumf_single src acc h hφ hacc (ix1 r)).trans
    (Finset.fold_congr fun c _ => congrArg src (funext fun ax => Fin.ext (by
      match ax with
      | ⟨0, _⟩ => rfl
      | ⟨1, _⟩ => rfl)))

/-- Over the ROWS of an `[a, b]` matrix: in column `j`, the minimum of that column. -/
theorem multiReduction_min_rows_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (j : Fin b) :
    multiReduction .minimumf [0] ⟨1, ![b]⟩ src acc h hφ hacc (ix1 j)
      = (Finset.univ : Finset (Fin a)).fold min (Ideal.ofBits .f32 acc) fun r => src (ix2 r j) :=
  (multiReduction_minimumf_single src acc h hφ hacc (ix1 j)).trans
    (Finset.fold_congr fun c _ => congrArg src (funext fun ax => Fin.ext (by
      match ax with
      | ⟨0, _⟩ => rfl
      | ⟨1, _⟩ => rfl)))

/-- The host's `reduce` with a minimum body over the LAST axis of an `[a, b, c]` array: at `(i, j)`, the minimum from the
    initial value over `k` of the entries `(i, j, k)`. -/
theorem hostReduce_min_last_apply {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce FloatOps.minimumf x init h' hu (ix2 i j)
      = (Finset.univ : Finset (Fin c)).fold min (init (Shape.Idx.first hu)) fun k => x (ix3 i j k) :=
  (Host.reduce_eq_fold_single FloatOps.minimumf x init h' h hu (ix2 i j)).trans
    (Finset.fold_congr fun k _ => congrArg x (funext fun ax => Fin.ext (by
      match ax with
      | ⟨0, _⟩ => rfl
      | ⟨1, _⟩ => rfl
      | ⟨2, _⟩ => rfl)))

/-- The same over the MIDDLE axis: at `(i, k)`, the minimum from the initial value over `j` of the entries `(i, j, k)`. -/
theorem hostReduce_min_mid_apply {a b c : ℕ} {u : Shape} (x : FVec Ideal ⟨3, ![a, b, c]⟩ .f32) (init : u.Idx → Ideal .f32)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduce FloatOps.minimumf x init h' hu (ix2 i k)
      = (Finset.univ : Finset (Fin b)).fold min (init (Shape.Idx.first hu)) fun j => x (ix3 i j k) :=
  (Host.reduce_eq_fold_single FloatOps.minimumf x init h' h hu (ix2 i k)).trans
    (Finset.fold_congr fun j _ => congrArg x (funext fun ax => Fin.ext (by
      match ax with
      | ⟨0, _⟩ => rfl
      | ⟨1, _⟩ => rfl
      | ⟨2, _⟩ => rfl)))

end Idealize.ShloMosaic.ValueIdx
-- ==== Proof.Payloads.lean ====
/-
  The kernel body's values, read at an entry, at the extended reals. For the first cloud's block `x1` (4096 points) and a tile
  `x2` of 1024 points of the second:
  the tile's distance matrix at `(n, m)` is `|x1_n|² + |x2_m|² − 2 ⟨x1_n, x2_m⟩` — the squared norms are lane sums of three
  products cast to a column and to a row and broadcast over the matrix, the inner products one matrix product contracting
  the three coordinates into a zero accumulator —; its lane-folded row partial at `(n, l)` is the chain of binary minima over
  the eight lane-blocks `128 k + l`; the column minima are a sublane minimum from the word of +∞ over the 4096 rows; the fold
  into the running minimum is an elementwise minimum; and the final lane reduction a minimum from +∞ over the 128 lanes.
-/
import proofs.«137086_g88837103551002_cont_sun_m_1114_20_alg».proof.Proof.Gen.KernelIdeal.Skeleton
import proofs.«137086_g88837103551002_cont_sun_m_1114_20_alg».proof.Proof.Spec
import proofs.«137086_g88837103551002_cont_sun_m_1114_20_alg».proof.Proof.LibKeepdims
import proofs.«137086_g88837103551002_cont_sun_m_1114_20_alg».proof.Proof.LibMinReduce
import Idealize.ShloMosaic.Lib.Pipeline.Value
import Idealize.ShloMosaic.Lib.ValueLayout

noncomputable section

open scoped BigOperators

namespace Cert.KernelIdeal.Tile

open Cert.KernelIdeal Cert.KernelIdeal.Gen
open Idealize.ShloMosaic Idealize.ShloMosaic.ValueIdx Cert.Chamfer

/-- The tile's squared distance between point `n` of the block `x1` and point `m` of the tile `x2`. -/
def tilePd (x1 : Vec Ideal S1x4096x3 .f32) (x2 : Vec Ideal S1x1024x3 .f32) (n : Fin 4096) (m : Fin 1024) : EReal :=
  ((∑ d : Fin 3, x1 (ix3 (0 : Fin 1) n d) * x1 (ix3 (0 : Fin 1) n d))
      + ∑ d : Fin 3, x2 (ix3 (0 : Fin 1) m d) * x2 (ix3 (0 : Fin 1) m d))
    - two * ∑ d : Fin 3, x1 (ix3 (0 : Fin 1) n d) * x2 (ix3 (0 : Fin 1) m d)

/-- Lane `l` of lane-block `k` of a tile of 1024. -/
def lane (k : Fin 8) (l : Fin 128) : Fin 1024 := ⟨128 * k.val + l.val, by omega⟩

/-! ## The matrix product: rows of the block against rows of the tile -/

theorem lhs_dot_0 (i : S4096x1024.Idx) (q : dot_S4096x3_S1024x3_S4096x1024_1_1_0_0_n_n.contr.Idx) :
    (dot_S4096x3_S1024x3_S4096x1024_1_1_0_0_n_n.lhsIdx i q 0).val = (i 0).val := by
  unfold DotDims.lhsIdx
  rw [dif_neg (show ¬(0 : Fin S4096x3.rank) ∈ dot_S4096x3_S1024x3_S4096x1024_1_1_0_0_n_n.lhsBatch by decide), dif_pos (show (0 : Fin S4096x3.rank) ∈ dot_S4096x3_S1024x3_S4096x1024_1_1_0_0_n_n.lhsNonContracting by decide)]
  rfl
theorem lhs_dot_1 (i : S4096x1024.Idx) (q : dot_S4096x3_S1024x3_S4096x1024_1_1_0_0_n_n.contr.Idx) :
    (dot_S4096x3_S1024x3_S4096x1024_1_1_0_0_n_n.lhsIdx i q 1).val = (q ⟨0, by decide⟩).val :=
  dot_S4096x3_S1024x3_S4096x1024_1_1_0_0_n_n.lhsIdx_val_of_single rfl i q
theorem rhs_dot_0 (i : S4096x1024.Idx) (q : dot_S4096x3_S1024x3_S4096x1024_1_1_0_0_n_n.contr.Idx) :
    (dot_S4096x3_S1024x3_S4096x1024_1_1_0_0_n_n.rhsIdx i q 0).val = (i 1).val := by
  unfold DotDims.rhsIdx
  rw [dif_neg (show ¬(0 : Fin S1024x3.rank) ∈ dot_S4096x3_S1024x3_S4096x1024_1_1_0_0_n_n.rhsBatch by decide), dif_pos (show (0 : Fin S1024x3.rank) ∈ dot_S4096x3_S1024x3_S4096x1024_1_1_0_0_n_n.rhsNonContracting by decide)]
  rfl
theorem rhs_dot_1 (i : S4096x1024.Idx) (q : dot_S4096x3_S1024x3_S4096x1024_1_1_0_0_n_n.contr.Idx) :
    (dot_S4096x3_S1024x3_S4096x1024_1_1_0_0_n_n.rhsIdx i q 1).val = (q ⟨0, by decide⟩).val :=
  dot_S4096x3_S1024x3_S4096x1024_1_1_0_0_n_n.rhsIdx_val_of_single rfl i q

/-- The kernel's matrix product into the zero accumulator at `(n, m)`: the sum over the three coordinates of row `n` of the
    left operand times row `m` of the right. -/
theorem matmul_rows_apply (l : FVec Ideal S4096x3 .f32) (r : FVec Ideal S1024x3 .f32) (n : Fin 4096) (m : Fin 1024) :
    matmul dot_S4096x3_S1024x3_S4096x1024_1_1_0_0_n_n none l r (constant S4096x1024 .f32 0x00000000#32) (ix2 n m)
      = ∑ d : Fin 3, l (ix2 n d) * r (ix2 m d) := by
  simp only [matmul]
  rw [Ideal.matmul_constant_zero_apply, ← Equiv.sum_comp (ValueIdx.contrEquiv1 dot_S4096x3_S1024x3_S4096x1024_1_1_0_0_n_n 3 rfl rfl).symm]
  refine Finset.sum_congr rfl fun k _ => ?_
  have hk := ValueIdx.contrEquiv1_symm_val dot_S4096x3_S1024x3_S4096x1024_1_1_0_0_n_n 3 rfl rfl k
  have el : dot_S4096x3_S1024x3_S4096x1024_1_1_0_0_n_n.lhsIdx (ix2 n m) ((ValueIdx.contrEquiv1 dot_S4096x3_S1024x3_S4096x1024_1_1_0_0_n_n 3 rfl rfl).symm k) = ix2 n k := funext fun a => Fin.ext (by
    match a with
    | ⟨0, _⟩ => exact lhs_dot_0 _ _
    | ⟨1, _⟩ => exact (lhs_dot_1 _ _).trans hk)
  have er : dot_S4096x3_S1024x3_S4096x1024_1_1_0_0_n_n.rhsIdx (ix2 n m) ((ValueIdx.contrEquiv1 dot_S4096x3_S1024x3_S4096x1024_1_1_0_0_n_n 3 rfl rfl).symm k) = ix2 m k := funext fun a => Fin.ext (by
    match a with
    | ⟨0, _⟩ => exact rhs_dot_0 _ _
    | ⟨1, _⟩ => exact (rhs_dot_1 _ _).trans hk)
  rw [el, er]

/-! ## The payloads at an entry -/

/-- The tile's distance matrix at an entry. -/
theorem pay3_apply (x1 : Vec Ideal S1x4096x3 .f32) (x2 : Vec Ideal S1x1024x3 .f32) (n : Fin 4096) (m : Fin 1024) :
    k0_pay3 (F := Ideal) x1 x2 (ix2 n m) = tilePd x1 x2 n m := by
  unfold k0_pay3 tilePd
  dsimp only
  rw [subf_apply, addf_apply, mulf_apply, broadcast_apply]
  refine congrArg₂ (· - ·) (congrArg₂ (· + ·) ?_ ?_) (congrArg₂ (· * ·) rfl ?_)
  · refine (broadcastTo_a1_ab_apply _ _ n m).trans ((shapeCast_a_a1_apply _ _ n 0).trans
      ((multiReduction_add_cols_apply _ _ _ _ n).trans (Finset.sum_congr rfl fun d _ => ?_)))
    exact congrArg₂ (· * ·) (shapeCast_1ab_ab_apply x1 _ n d) (shapeCast_1ab_ab_apply x1 _ n d)
  · refine (broadcastTo_1b_ab_apply _ _ n m).trans ((shapeCast_a_1a_apply _ _ 0 m).trans
      ((multiReduction_add_cols_apply _ _ _ _ m).trans (Finset.sum_congr rfl fun d _ => ?_)))
    exact congrArg₂ (· * ·) (shapeCast_1ab_ab_apply x2 _ m d) (shapeCast_1ab_ab_apply x2 _ m d)
  · refine (matmul_rows_apply _ _ n m).trans (Finset.sum_congr rfl fun d _ => ?_)
    exact congrArg₂ (· * ·) (shapeCast_1ab_ab_apply x1 _ n d) (shapeCast_1ab_ab_apply x2 _ m d)

/-- The lane-folded row partial at `(n, l)`: the chain of minima over the eight lane-blocks. -/
theorem pay4_apply (x1 : Vec Ideal S1x4096x3 .f32) (x2 : Vec Ideal S1x1024x3 .f32) (n : Fin 4096) (l : Fin 128) :
    k0_pay4 (F := Ideal) x1 x2 (ix2 n l) = fold8 fun k => tilePd x1 x2 n (lane k l) := by
  unfold k0_pay4 fold8
  dsimp only
  simp only [minimumf_apply]
  rw [slice2_axis1_apply 0 _ _ n l (lane 0 l) (by simp [lane]), slice2_axis1_apply 128 _ _ n l (lane 1 l) (by simp [lane]),
    slice2_axis1_apply 256 _ _ n l (lane 2 l) (by simp [lane]), slice2_axis1_apply 384 _ _ n l (lane 3 l) (by simp [lane]),
    slice2_axis1_apply 512 _ _ n l (lane 4 l) (by simp [lane]), slice2_axis1_apply 640 _ _ n l (lane 5 l) (by simp [lane]),
    slice2_axis1_apply 768 _ _ n l (lane 6 l) (by simp [lane]), slice2_axis1_apply 896 _ _ n l (lane 7 l) (by simp [lane])]
  simp only [pay3_apply]

/-- The scratch's reset value is the same partial (a cast between equal shapes). -/
theorem pay6_apply (x1 : Vec Ideal S1x4096x3 .f32) (x2 : Vec Ideal S1x1024x3 .f32) (n : Fin 4096) (l : Fin 128) :
    k0_pay6 (F := Ideal) x1 x2 (ix2 n l) = fold8 fun k => tilePd x1 x2 n (lane k l) := by
  unfold k0_pay6
  rw [shapeCast_self]
  exact pay4_apply x1 x2 n l

/-- The tile's column minima at `m`: the minimum from +∞ over the 4096 rows. -/
theorem pay5_apply (x1 : Vec Ideal S1x4096x3 .f32) (x2 : Vec Ideal S1x1024x3 .f32) (m : Fin 1024) :
    k0_pay5 (F := Ideal) x1 x2 (ix3 (0 : Fin 1) (0 : Fin 1) m)
      = (Finset.univ : Finset (Fin 4096)).fold min inf fun n => tilePd x1 x2 n m := by
  unfold k0_pay5
  dsimp only
  rw [shapeCast_apply _ _ _ (ix1 m) (by
    rw [Shape.rowMajor_val_three, Shape.rowMajor_val_one]; show m.val = (0 * 1 + 0) * 1024 + m.val; omega)]
  refine (multiReduction_min_rows_apply (k0_pay3 (F := Ideal) x1 x2) _ _ _ _ m).trans ?_
  exact Finset.fold_congr fun n _ => pay3_apply x1 x2 n m

/-- The fold into the running minimum, at an entry. -/
theorem pay1_apply (v31 : FVec Ideal S4096x128 .f32) (v45 : Vec Ideal S4096x128 .f32) (n : Fin 4096) (l : Fin 128) :
    k0_pay1 (F := Ideal) v31 v45 (ix2 n l) = min (v45 (ix2 n l)) (v31 (ix2 n l)) := by
  unfold k0_pay1
  rw [shapeCast_self]
  rfl

/-- The final lane reduction at row `n`: the minimum from +∞ over the 128 lanes. -/
theorem pay2_apply (v45 : Vec Ideal S4096x128 .f32) (n : Fin 4096) :
    k0_pay2 (F := Ideal) v45 (ix3 (0 : Fin 1) (0 : Fin 1) n)
      = (Finset.univ : Finset (Fin 128)).fold min inf fun l => v45 (ix2 n l) := by
  unfold k0_pay2
  dsimp only
  rw [shapeCast_apply _ _ _ (ix1 n) (by
    rw [Shape.rowMajor_val_three, Shape.rowMajor_val_one]; show n.val = (0 * 1 + 0) * 4096 + n.val; omega)]
  exact multiReduction_min_cols_apply v45 _ _ _ _ n

end Cert.KernelIdeal.Tile

end
-- ==== Proof.IdealValue.Blocks.lean ====
/-
  Where the blocks lie. Point `t = 4 b + j` of the grid reads all of batch `b` of the first cloud and tile `j` (points
  `1024 j … 1024 j + 1023`) of batch `b` of the second, and writes the first output's block for batch `b` and the second
  output's for tile `j` of batch `b`. So the tile's squared distance between its points `n` and `m'` is the specification's
  squared distance between points `n` and `1024 j + m'` of batch `b`.
-/
import proofs.«137086_g88837103551002_cont_sun_m_1114_20_alg».proof.Proof.IdealFrame.Carry
import proofs.«137086_g88837103551002_cont_sun_m_1114_20_alg».proof.Proof.Payloads

set_option maxRecDepth 16384

noncomputable section

open scoped BigOperators

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame Cert.KernelIdeal.Tile Cert.Chamfer

variable (m : (ℓ : Loc nD τ sig) → Buf (Elt Ideal) ℓ)

/-- The four windows' block indices at point `t`, decided over the grid. -/
theorem index_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = t.val % 4 :=
  (by decide +kernel : ∀ t : Fin grid0.N, _)

/-- The two argument arrays as the region finds them, as point clouds. -/
abbrev X1 (c : Dev nD) : Clouds := V m c main_arg0
abbrev X2 (c : Dev nD) : Clouds := V m c main_arg1

/-- The first cloud's block at point `t` is batch `t / 4`. -/
theorem x1At_apply (c : Dev nD) (t : Fin cfg0.N) (b : Fin 8) (hb : b.val = t.val / 4) (n : Fin 4096) (d : Fin 3) :
    x1At m c t (ix3 (0 : Fin 1) n d) = X1 m c (ix3 b n d) := by
  obtain ⟨e0, e1, e2, -⟩ := index_facts t
  show V m c main_arg0 (((cfg0.win 0).blk t).view.emb (ix3 (0 : Fin 1) n d)) = V m c main_arg0 (ix3 b n d)
  refine congrArg _ (funext fun a => Fin.ext ?_)
  match a with
  | ⟨0, _⟩ => show win0_0.index t (0 : Fin 3) * 1 + 1 * 0 = b.val; omega
  | ⟨1, _⟩ => show win0_0.index t (1 : Fin 3) * 4096 + 1 * n.val = n.val; omega
  | ⟨2, _⟩ => show win0_0.index t (2 : Fin 3) * 3 + 1 * d.val = d.val; omega

/-- The second cloud's block at point `t` is tile `t % 4` of batch `t / 4`. -/
theorem x2At_apply (c : Dev nD) (t : Fin cfg0.N) (b : Fin 8) (hb : b.val = t.val / 4) (mm : Fin 1024) (p : Fin 4096)
    (hp : p.val = 1024 * (t.val % 4) + mm.val) (d : Fin 3) :
    x2At m c t (ix3 (0 : Fin 1) mm d) = X2 m c (ix3 b p d) := by
  obtain ⟨-, -, -, e0, e1, e2, -⟩ := index_facts t
  show V m c main_arg1 (((cfg0.win 1).blk t).view.emb (ix3 (0 : Fin 1) mm d)) = V m c main_arg1 (ix3 b p d)
  refine congrArg _ (funext fun a => Fin.ext ?_)
  match a with
  | ⟨0, _⟩ => show win0_1.index t (0 : Fin 3) * 1 + 1 * 0 = b.val; omega
  | ⟨1, _⟩ => show win0_1.index t (1 : Fin 3) * 1024 + 1 * mm.val = p.val; omega
  | ⟨2, _⟩ => show win0_1.index t (2 : Fin 3) * 3 + 1 * d.val = d.val; omega

/-- The tile's squared distance at point `t` is the specification's, at the tile's position in its batch. -/
theorem tilePd_blocks (c : Dev nD) (t : Fin cfg0.N) (b : Fin 8) (hb : b.val = t.val / 4) (n : Fin 4096) (mm : Fin 1024)
    (p : Fin 4096) (hp : p.val = 1024 * (t.val % 4) + mm.val) :
    tilePd (x1At m c t) (x2At m c t) n mm = pd (X1 m c) (X2 m c) b n p := by
  unfold tilePd pd sqNorm Cert.Chamfer.inner
  simp only [x1At_apply m c t b hb, x2At_apply m c t b hb mm p hp]

end Cert.KernelIdeal.Arrays

end
-- ==== Proof.IdealValue.Running.lean ====
/-
  What the two output blocks hold. The running row minimum at a batch's LAST tile is, at `(n, l)`, the chain over the
  batch's four tiles of each tile's chain over its eight lane-blocks of the squared distances at positions
  `1024 j + 128 k + l`; the minimum from +∞ over the 128 lanes of that is the minimum over all 4096 positions, which is the
  first result at `(b, n)`. The second output's block at any point is the tile's column minima: at `m'`, the minimum from +∞
  over the first cloud's 4096 points of the squared distance to point `1024 j + m'`, the second result there.
-/
import proofs.«137086_g88837103551002_cont_sun_m_1114_20_alg».proof.Proof.IdealValue.Blocks

set_option maxRecDepth 16384

noncomputable section

open scoped BigOperators

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame Cert.KernelIdeal.Tile Cert.Chamfer

variable (m : (ℓ : Loc nD τ sig) → Buf (Elt Ideal) ℓ)

/-- The lane-folded row partial of the tile at position `s` of the grid, at `(n, l)`. -/
def tileMin (c : Dev nD) (s : ℕ) (hs : s < cfg0.N) (n : Fin 4096) (l : Fin 128) : EReal :=
  fold8 fun k => tilePd (x1At m c ⟨s, hs⟩) (x2At m c ⟨s, hs⟩) n (lane k l)

/-- At a batch's first tile the running minimum is the tile's partial. -/
theorem acc_first (c : Dev nD) (s : ℕ) (hs : s < cfg0.N) (h0 : s % 4 = 0) (n : Fin 4096) (l : Fin 128) :
    accAt m c s hs (ix2 n l) = tileMin m c s hs n l := by
  rw [accAt_first m c ⟨s, hs⟩ h0]
  exact pay6_apply _ _ n l

/-- At a later tile it is the minimum of what the tile before left and the tile's partial. -/
theorem acc_step (c : Dev nD) (s : ℕ) (hs : s + 1 < cfg0.N) (h0 : ¬ (s + 1) % 4 = 0) (n : Fin 4096) (l : Fin 128) :
    accAt m c (s + 1) hs (ix2 n l) = min (accAt m c s (Nat.lt_of_succ_lt hs) (ix2 n l)) (tileMin m c (s + 1) hs n l) := by
  rw [accAt_later m c ⟨s + 1, hs⟩ h0, pay1_apply, pay4_apply]
  rfl

/-- At a batch's last tile: the four tiles' partials, chained. -/
theorem acc_last (c : Dev nD) (s : ℕ) (h0 : s % 4 = 0) (hs : s + 3 < cfg0.N) (n : Fin 4096) (l : Fin 128) :
    accAt m c (s + 3) hs (ix2 n l)
      = fold4 fun j => tileMin m c (s + j.val) (by have := j.isLt; omega) n l := by
  rw [acc_step m c (s + 2) hs (by omega), acc_step m c (s + 1) (by omega) (by omega), acc_step m c s (by omega) (by omega),
    acc_first m c s (by omega) h0]
  rfl

/-- A tile's partial in terms of the argument arrays: tile `j` of batch `b`. -/
theorem tileMin_eq (c : Dev nD) (s : ℕ) (hs : s < cfg0.N) (b : Fin 8) (j : Fin 4) (hb : b.val = s / 4) (hj : j.val = s % 4)
    (n : Fin 4096) (l : Fin 128) :
    tileMin m c s hs n l = fold8 fun k => pd (X1 m c) (X2 m c) b n (pos j k l) := by
  unfold tileMin
  refine congrArg fold8 (funext fun k => ?_)
  exact tilePd_blocks m c ⟨s, hs⟩ b hb n (lane k l) (pos j k l) (by
    show 1024 * j.val + 128 * k.val + l.val = 1024 * (s % 4) + (128 * k.val + l.val); omega)

/-- THE FIRST OUTPUT'S BLOCK at a batch's last tile: at `n`, the first result at `(b, n)`. -/
theorem d1_value (c : Dev nD) (s : ℕ) (h0 : s % 4 = 0) (hs : s + 3 < cfg0.N) (b : Fin 8) (hb : b.val = s / 4) (n : Fin 4096) :
    k0_pay2 (F := Ideal) (accAt m c (s + 3) hs) (ix3 (0 : Fin 1) (0 : Fin 1) n) = nearest1 (X1 m c) (X2 m c) b n := by
  rw [pay2_apply]
  unfold nearest1
  refine (Finset.fold_congr fun l _ => ?_).trans (fold_lanes_tiles inf fun p => pd (X1 m c) (X2 m c) b n p)
  rw [acc_last m c s h0 hs n l]
  refine congrArg fold4 (funext fun j => ?_)
  exact tileMin_eq m c (s + j.val) _ b j (by have := j.isLt; omega) (by have := j.isLt; omega) n l

/-- THE SECOND OUTPUT'S BLOCK at any point `t`: at `m'`, the second result at `(t / 4, 1024 (t % 4) + m')`. -/
theorem d2_value (c : Dev nD) (t : Fin cfg0.N) (b : Fin 8) (hb : b.val = t.val / 4) (mm : Fin 1024) (p : Fin 4096)
    (hp : p.val = 1024 * (t.val % 4) + mm.val) :
    k0_pay5 (F := Ideal) (x1At m c t) (x2At m c t) (ix3 (0 : Fin 1) (0 : Fin 1) mm) = nearest2 (X1 m c) (X2 m c) b p := by
  rw [pay5_apply]
  unfold nearest2
  exact Finset.fold_congr fun n _ => tilePd_blocks m c t b hb n mm p hp

end Cert.KernelIdeal.Arrays

end
-- ==== Proof.IdealValue.Arrays.lean ====
/-
  The two output arrays after the run, and the program's two results.
  What a point writes back to the first output (only a batch's last tile does) is its batch's block of the first result, and
  what every point writes back to the second output is its tile's block of the second result; the blocks written back cover
  both arrays, so each ends holding its result as a `[8, 1, 4096]` array. The two reshapes after the region drop the unit
  axis. The argument arrays are staged inputs and end as they began.
-/
import proofs.«137086_g88837103551002_cont_sun_m_1114_20_alg».proof.Proof.IdealValue.Running

set_option maxRecDepth 16384

noncomputable section

open scoped BigOperators

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frame Cert.KernelIdeal.Tile Cert.Chamfer

variable (m : (ℓ : Loc nD τ sig) → Buf (Elt Ideal) ℓ)

/-- The first result as the `[8, 1, 4096]` array the kernel's first output is. -/
def G1 (c : Dev nD) : S8x1x4096.Idx → EReal := fun i =>
  nearest1 (X1 m c) (X2 m c) ⟨(i 0).val, (i 0).isLt⟩ ⟨(i 2).val, (i 2).isLt⟩
/-- The second result likewise. -/
def G2 (c : Dev nD) : S8x1x4096.Idx → EReal := fun i =>
  nearest2 (X1 m c) (X2 m c) ⟨(i 0).val, (i 0).isLt⟩ ⟨(i 2).val, (i 2).isLt⟩

/-! ## The first output -/

/-- What a batch's last tile leaves in the first output's block, entry by entry, is the first result under that block. -/
theorem d1_flushed_at (c : Dev nD) (t : Fin cfg0.N) (h3 : t.val % 4 = 3) (j : S1x1x4096.Idx) :
    k0_pay2 (F := Ideal) (accAt m c t.val t.isLt) j = G1 m c (((cfg0.win 2).blk t).view.emb j) := by
  obtain ⟨u, v, n, rfl⟩ : ∃ (u v : Fin 1) (n : Fin 4096), j = ix3 u v n := ⟨j 0, j 1, j 2, eq_ix3 j⟩
  obtain rfl : u = 0 := Subsingleton.elim _ _
  obtain rfl : v = 0 := Subsingleton.elim _ _
  obtain ⟨tv, ht⟩ := t
  dsimp only at h3
  obtain ⟨s, rfl⟩ : ∃ s, tv = s + 3 := ⟨tv - 3, by omega⟩
  have hN : s + 3 < 32 := lt_of_lt_of_eq ht (show cfg0.N = 32 from N_0)
  obtain ⟨-, -, -, -, -, -, e0, e1, e2, -⟩ := index_facts ⟨s + 3, ht⟩
  dsimp only at e0 e1 e2
  rw [d1_value m c s (by omega) ht ⟨(s + 3) / 4, by omega⟩ (by show (s + 3) / 4 = s / 4; omega) n]
  unfold G1
  refine congrArg₂ (nearest1 (X1 m c) (X2 m c)) (Fin.ext ?_) (Fin.ext ?_)
  · show (s + 3) / 4 = win0_2.index ⟨s + 3, ht⟩ (0 : Fin 3) * 1 + 1 * 0; omega
  · show n.val = win0_2.index ⟨s + 3, ht⟩ (2 : Fin 3) * 4096 + 1 * n.val; omega

/-- WHAT A FLUSHING POINT WRITES BACK to the first output is its block of the first result. -/
theorem d1_flushed (c : Dev nD) (t : Fin cfg0.N) (hf : (cfg0.win 2).flush t = true) :
    (dats m 0 c).flushed 2 t = ((cfg0.win 2).blk t).view.read (Elt Ideal) (G1 m c) := by
  have h3 : t.val % 4 = 3 := (flush0_2 t).mp hf
  show (cfg0.win 2).cut (grid0.coords t) ((dats m 0 c).after 2 t) = _
  rw [after_d1]
  funext j
  exact d1_flushed_at m c t h3 j

/-- An index of the first output is in point `t`'s block iff each coordinate is in the block's range on its axis. -/
theorem mem_blk_d1 (t : Fin cfg0.N) (i : S8x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v0_0).slice (win0_2.rect t)).set ↔ _
  rw [View.set_slice_whole, Rect.mem_set_unit]
  exact Iff.rfl

/-- Every index of the first output is under the block some batch's last tile writes back. -/
theorem d1_cover (i : S8x1x4096.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 4096 := (i 2).isLt
  have hN : cfg0.N = 32 := N_0
  have ht : 4 * (i 0).val + 3 < cfg0.N := by omega
  refine ⟨⟨4 * (i 0).val + 3, ht⟩, (flush0_2 _).mpr (by show (4 * (i 0).val + 3) % 4 = 3; omega), ?_⟩
  rw [mem_blk_d1]
  obtain ⟨-, -, -, -, -, -, e0, e1, e2, -⟩ := index_facts ⟨4 * (i 0).val + 3, ht⟩
  dsimp only at e0 e1 e2
  intro a
  match a with
  | ⟨0, _⟩ => show win0_2.index ⟨4 * (i 0).val + 3, ht⟩ (0 : Fin 3) * 1 ≤ (i 0).val ∧ (i 0).val < win0_2.index ⟨4 * (i 0).val + 3, ht⟩ (0 : Fin 3) * 1 + 1; omega
  | ⟨1, _⟩ => show win0_2.index ⟨4 * (i 0).val + 3, ht⟩ (1 : Fin 3) * 1 ≤ (i 1).val ∧ (i 1).val < win0_2.index ⟨4 * (i 0).val + 3, ht⟩ (1 : Fin 3) * 1 + 1; omega
  | ⟨2, _⟩ => show win0_2.index ⟨4 * (i 0).val + 3, ht⟩ (2 : Fin 3) * 4096 ≤ (i 2).val ∧ (i 2).val < win0_2.index ⟨4 * (i 0).val + 3, ht⟩ (2 : Fin 3) * 4096 + 4096; omega

/-- THE FIRST OUTPUT ARRAY after the run is the first result. -/
theorem d1_final (c : Dev nD) : (dats m 0 c).arrAt 2 cfg0.N = G1 m c :=
  (dats m 0 c).arrAt_eq_of_cover 2 (G1 m c) (fun t hf => d1_flushed m c t hf) d1_cover

/-! ## The second output -/

/-- What any point leaves in the second output's block, entry by entry, is the second result under that block. -/
theorem d2_flushed_at (c : Dev nD) (t : Fin cfg0.N) (j : S1x1x1024.Idx) :
    k0_pay5 (F := Ideal) (x1At m c t) (x2At m c t) j = G2 m c (((cfg0.win 3).blk t).view.emb j) := by
  obtain ⟨u, v, mm, rfl⟩ : ∃ (u v : Fin 1) (mm : Fin 1024), j = ix3 u v mm := ⟨j 0, j 1, j 2, eq_ix3 j⟩
  obtain rfl : u = 0 := Subsingleton.elim _ _
  obtain rfl : v = 0 := Subsingleton.elim _ _
  have hN : t.val < 32 := lt_of_lt_of_eq t.isLt (show cfg0.N = 32 from N_0)
  obtain ⟨-, -, -, -, -, -, -, -, -, e0, e1, e2⟩ := index_facts t
  rw [d2_value m c t ⟨t.val / 4, by omega⟩ rfl mm ⟨1024 * (t.val % 4) + mm.val, by omega⟩ rfl]
  unfold G2
  refine congrArg₂ (nearest2 (X1 m c) (X2 m c)) (Fin.ext ?_) (Fin.ext ?_)
  · show t.val / 4 = win0_3.index t (0 : Fin 3) * 1 + 1 * 0; omega
  · show 1024 * (t.val % 4) + mm.val = win0_3.index t (2 : Fin 3) * 1024 + 1 * mm.val; omega

/-- WHAT EVERY POINT WRITES BACK to the second output is its block of the second result. -/
theorem d2_flushed (c : Dev nD) (t : Fin cfg0.N) :
    (dats m 0 c).flushed 3 t = ((cfg0.win 3).blk t).view.read (Elt Ideal) (G2 m c) := by
  show (cfg0.win 3).cut (grid0.coords t) ((dats m 0 c).after 3 t) = _
  rw [after_d2]
  funext j
  exact d2_flushed_at m c t j

theorem mem_blk_d2 (t : Fin cfg0.N) (i : S8x1x4096.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v0_1).slice (win0_3.rect t)).set ↔ _
  rw [View.set_slice_whole, Rect.mem_set_unit]
  exact Iff.rfl

/-- Every index of the second output is under some point's block. -/
theorem d2_cover (i : S8x1x4096.Idx) : ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 4096 := (i 2).isLt
  have hN : cfg0.N = 32 := N_0
  have ht : 4 * (i 0).val + (i 2).val / 1024 < cfg0.N := by omega
  refine ⟨⟨4 * (i 0).val + (i 2).val / 1024, ht⟩, flush0_3 _, ?_⟩
  rw [mem_blk_d2]
  obtain ⟨-, -, -, -, -, -, -, -, -, e0, e1, e2⟩ := index_facts ⟨4 * (i 0).val + (i 2).val / 1024, ht⟩
  dsimp only at e0 e1 e2
  intro a
  match a with
  | ⟨0, _⟩ => show win0_3.index ⟨4 * (i 0).val + (i 2).val / 1024, ht⟩ (0 : Fin 3) * 1 ≤ (i 0).val ∧ (i 0).val < win0_3.index ⟨4 * (i 0).val + (i 2).val / 1024, ht⟩ (0 : Fin 3) * 1 + 1; omega
  | ⟨1, _⟩ => show win0_3.index ⟨4 * (i 0).val + (i 2).val / 1024, ht⟩ (1 : Fin 3) * 1 ≤ (i 1).val ∧ (i 1).val < win0_3.index ⟨4 * (i 0).val + (i 2).val / 1024, ht⟩ (1 : Fin 3) * 1 + 1; omega
  | ⟨2, _⟩ => show win0_3.index ⟨4 * (i 0).val + (i 2).val / 1024, ht⟩ (2 : Fin 3) * 1024 ≤ (i 2).val ∧ (i 2).val < win0_3.index ⟨4 * (i 0).val + (i 2).val / 1024, ht⟩ (2 : Fin 3) * 1024 + 1024; omega

/-- THE SECOND OUTPUT ARRAY after the run is the second result. -/
theorem d2_final (c : Dev nD) : (dats m 0 c).arrAt 3 cfg0.N = G2 m c :=
  (dats m 0 c).arrAt_eq_of_cover 3 (G2 m c) (fun t _ => d2_flushed m c t) d2_cover

/-! ## The two reshapes after the region, and the run -/

/-- The program's first result: the first output with its unit axis dropped. -/
def R1 (c : Dev nD) : S8x4096.Idx → EReal := shapeCast S8x4096 (G1 m c) shapeCasts_S8x1x4096_S8x4096
/-- The program's second result. -/
def R2 (c : Dev nD) : S8x4096.Idx → EReal := shapeCast S8x4096 (G2 m c) shapeCasts_S8x1x4096_S8x4096

theorem tail_v1 (c : Dev nD) : Pipeline.afterTail₀ cfgs (dats m) 0 (V0 m) [hostOps1] c main_v1 = R1 m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0_0)
      = G1 m c := (Pipeline.withArrays_arr spec0 launch0.win.arr_inj c _ _ 2).trans (d1_final m c)
  rw [e]
  rfl

theorem tail_v2 (c : Dev nD) : Pipeline.afterTail₀ cfgs (dats m) 0 (V0 m) [hostOps1] c main_v2 = R2 m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0_1)
      = G2 m c := (Pipeline.withArrays_arr spec0 launch0.win.arr_inj c _ _ 3).trans (d2_final m c)
  rw [e]
  rfl

/-- The two result buffers bypass the region: they are unscoped and no window's array. -/
theorem v1_bypasses : main_v1 ∈ Pipeline.restRefs sig spec0 := Pipeline.mem_restRefs_of main_v1 rfl (by decide)
theorem v2_bypasses : main_v2 ∈ Pipeline.restRefs sig spec0 := Pipeline.mem_restRefs_of main_v2 rfl (by decide)

/-- THE RUN, READ: every weakly fair execution of the idealized kernel program terminates with its two results at the two
    nearest-neighbour distance arrays of its argument arrays, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v1) = R1 m c
      ∧ r.2.mem ((c.tc : Thread nD τ).loc main_v2) = R2 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 v1_bypasses).trans (tail_v1 m c),
       ((h c).2 main_v2 v2_bypasses).trans (tail_v2 m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Arrays

end
-- ==== Proof.RefValue.lean ====
/-
  The reference program's two results are the two nearest-neighbour distance arrays of the specification.
  Its distance tensor at `(b, n, m)` is `|x_n|² + |y_m|² − 2 ⟨x_n, y_m⟩` in batch `b` — the two squared norms are host sums
  from a zero word, the inner product a `dot_general` contracting the three coordinates, and the broadcasts only move
  indices —, and each result is a host `reduce` with a minimum body from the word of +∞ over one of its two point axes.
-/
import proofs.«137086_g88837103551002_cont_sun_m_1114_20_alg».proof.Proof.Gen.ReferenceIdeal.Read
import proofs.«137086_g88837103551002_cont_sun_m_1114_20_alg».proof.Proof.Spec
import proofs.«137086_g88837103551002_cont_sun_m_1114_20_alg».proof.Proof.LibMinReduce

noncomputable section

namespace Cert.ReferenceIdeal.RefValue

open Cert.ReferenceIdeal Cert.ReferenceIdeal.Gen Cert.ReferenceIdeal.Read
open Idealize.ShloMosaic Idealize.ShloMosaic.ValueIdx Cert.Chamfer

/-- The reference's distance tensor at an entry is the specification's squared distance. -/
theorem dist_apply (x y : Clouds) (b : Fin 8) (n m : Fin 4096) :
    val_main_v12 (F := Ideal) x y (ix3 b n m) = pd x y b n m := by
  rw [val_main_v12_apply, val_main_v9_apply, val_main_v11_apply, val_main_v7_apply, val_main_v5_apply, val_main_v1_apply,
    val_main_v8_apply, val_main_v6_apply, val_main_v3_apply, val_main_v10_apply, val_main_v4_apply]
  have e1 : ∀ k : Fin 3, idx_main_v1 (idx_main_v5 (idx_main_v7 (ix3 b n m))) k = ix3 b n k := fun k => funext fun a => by
    match a with | ⟨0, _⟩ => rfl | ⟨1, _⟩ => rfl | ⟨2, _⟩ => rfl
  have e2 : ∀ k : Fin 3, idx_main_v3 (idx_main_v6 (idx_main_v8 (ix3 b n m))) k = ix3 b m k := fun k => funext fun a => by
    match a with | ⟨0, _⟩ => rfl | ⟨1, _⟩ => rfl | ⟨2, _⟩ => rfl
  have e3 : ∀ k : Fin 3, lidx_main_v4 (ix3 b n m) k = ix3 b n k := fun k => funext fun a => by
    match a with | ⟨0, _⟩ => rfl | ⟨1, _⟩ => rfl | ⟨2, _⟩ => rfl
  have e4 : ∀ k : Fin 3, ridx_main_v4 (ix3 b n m) k = ix3 b m k := fun k => funext fun a => by
    match a with | ⟨0, _⟩ => rfl | ⟨1, _⟩ => rfl | ⟨2, _⟩ => rfl
  simp only [e1, e2, e3, e4, val_main_v0_apply, val_main_v2_apply, val_main_cst_apply, val_main_cst_0_apply,
    val_main_cst_1_apply]
  show (Ideal.ofBits .f32 0x00000000#32 + (∑ k : Fin 3, x (ix3 b n k) * x (ix3 b n k))
        + (Ideal.ofBits .f32 0x00000000#32 + ∑ k : Fin 3, y (ix3 b m k) * y (ix3 b m k)))
      - Ideal.ofBits .f32 0x40000000#32 * (∑ k : Fin 3, x (ix3 b n k) * y (ix3 b m k)) = _
  rw [Ideal.ofBits_zero_f32, zero_add, zero_add]
  rfl

/-- The first result: for each point of the first cloud, the distance to its nearest point of the second. -/
theorem result1 (x y : Clouds) (b : Fin 8) (n : Fin 4096) :
    val_main_v13 (F := Ideal) x y (ix2 b n) = nearest1 x y b n := by
  unfold val_main_v13 nearest1
  rw [hostReduce_min_last_apply (val_main_v12 (F := Ideal) x y) (val_main_cst_2 (F := Ideal))
    reducesTo_S8x4096x4096_S8x4096_d2 (by decide) h_S_ b n]
  exact Finset.fold_congr fun m _ => dist_apply x y b n m

/-- The second result: for each point of the second cloud, the distance to its nearest point of the first. -/
theorem result2 (x y : Clouds) (b : Fin 8) (m : Fin 4096) :
    val_main_v14 (F := Ideal) x y (ix2 b m) = nearest2 x y b m := by
  unfold val_main_v14 nearest2
  rw [hostReduce_min_mid_apply (val_main_v12 (F := Ideal) x y) (val_main_cst_3 (F := Ideal))
    reducesTo_S8x4096x4096_S8x4096_d1 (by decide) h_S_ b m]
  exact Finset.fold_congr fun n _ => dist_apply x y b n m

end Cert.ReferenceIdeal.RefValue

end
-- ==== Proof.Bridge.lean ====
/-
  The two programs' results are the same arrays: entry `(b, n)` of the kernel's first result is the first output at
  `(b, 0, n)` (the reshape drops the unit axis), which is the specification's nearest-neighbour distance there, and so is
  the reference's first result; likewise the second.
-/
import proofs.«137086_g88837103551002_cont_sun_m_1114_20_alg».proof.Proof.IdealValue.Arrays
import proofs.«137086_g88837103551002_cont_sun_m_1114_20_alg».proof.Proof.RefValue

noncomputable section

namespace Cert.KernelIdeal.Arrays

open Idealize.ShloMosaic Idealize.ShloMosaic.TcCoe Idealize.ShloMosaic.ValueIdx
open Idealize.SL Idealize.SL.Sem
open Cert.KernelIdeal Cert.KernelIdeal.Gen Cert.KernelIdeal.Frame Cert.Chamfer

variable (m : (ℓ : Loc nD τ sig) → Buf (Elt Ideal) ℓ)

/-- The reference's first result, of the kernel's argument arrays, is the kernel's first result. -/
theorem result1_same (c : Dev nD) :
    Cert.ReferenceIdeal.Read.val_main_v13 (F := Ideal) (X1 m c) (X2 m c) = R1 m c := by
  funext i
  obtain ⟨b, n, rfl⟩ : ∃ (b : Fin 8) (n : Fin 4096), i = ix2 b n := ⟨i 0, i 1, eq_ix2 i⟩
  rw [Cert.ReferenceIdeal.RefValue.result1]
  unfold R1
  rw [shapeCast_apply (G1 m c) _ (ix2 b n) (ix3 b (0 : Fin 1) n) (by
    rw [Shape.rowMajor_val_three, Shape.rowMajor_val_two]
    show (b.val * 1 + 0) * 4096 + n.val = b.val * 4096 + n.val; omega)]
  rfl

/-- The reference's second result, of the kernel's argument arrays, is the kernel's second result. -/
theorem result2_same (c : Dev nD) :
    Cert.ReferenceIdeal.Read.val_main_v14 (F := Ideal) (X1 m c) (X2 m c) = R2 m c := by
  funext i
  obtain ⟨b, p, rfl⟩ : ∃ (b : Fin 8) (p : Fin 4096), i = ix2 b p := ⟨i 0, i 1, eq_ix2 i⟩
  rw [Cert.ReferenceIdeal.RefValue.result2]
  unfold R2
  rw [shapeCast_apply (G2 m c) _ (ix2 b p) (ix3 b (0 : Fin 1) p) (by
    rw [Shape.rowMajor_val_three, Shape.rowMajor_val_two]
    show (b.val * 1 + 0) * 4096 + p.val = b.val * 4096 + p.val; omega)]
  rfl

end Cert.KernelIdeal.Arrays

end
-- ==== Proof.lean ====
/-
  Chamfer distance: a tiled kernel against the plain jnp formula, equal over the extended reals.

  Both programs take two batches of point clouds `x, y : [8, 4096, 3]` and return, for every point of `x`, the squared
  distance to its nearest point of `y`, and the same with the clouds exchanged, the squared distance taken as
  `|x_n|² + |y_m|² − 2 ⟨x_n, y_m⟩`. The reference forms the whole `[8, 4096, 4096]` distance tensor and reduces it along
  either point axis. The kernel walks a grid of 8 batches × 4 tiles of 1024 points of `y`: per tile it forms the
  `4096 × 1024` distance block, writes its column minima (the second result's tile) at once, and folds the block 128 lanes
  at a time into a running `4096 × 128` row minimum kept in scratch — reset at a batch's first tile, folded at the later
  ones — whose minimum over the lanes it writes out at the batch's last tile (the first result's batch).

  At the extended reals the two distance formulas are the same term of the same sums (a lane sum and a host sum of three
  products from a zero word; a matrix product into a zero accumulator and a `dot_general`, both contracting the three
  coordinates), and a minimum is associative, commutative and idempotent, so taking it tile by tile, lane-block by
  lane-block and lane by lane gives the minimum over all 4096 points. No step needs the inputs to be finite.

  The frames of the two kernel programs come from the body's three runs (first, middle, last tile of a batch), the
  scratch's contents tracked from point to point; the reference's from its run. The idealization rewrote nothing.
-/
import proofs.«137086_g88837103551002_cont_sun_m_1114_20_alg».proof.Defs
import proofs.«137086_g88837103551002_cont_sun_m_1114_20_alg».proof.Proof.Gen.Kernel
import proofs.«137086_g88837103551002_cont_sun_m_1114_20_alg».proof.Proof.Gen.KernelIdeal
import proofs.«137086_g88837103551002_cont_sun_m_1114_20_alg».proof.Proof.Gen.ReferenceIdeal
import proofs.«137086_g88837103551002_cont_sun_m_1114_20_alg».proof.Proof.Gen.Pre_finite_inputs
import proofs.«137086_g88837103551002_cont_sun_m_1114_20_alg».proof.Proof.BitsFrame.Carry
import proofs.«137086_g88837103551002_cont_sun_m_1114_20_alg».proof.Proof.Bridge
import Idealize.ShloMosaic.Adequacy
import Idealize.ShloMosaic.Init

noncomputable section

namespace Cert.Proof

open Idealize.ShloMosaic Idealize.SL.Sem

/-- The word-level kernel program runs to the end and leaves its arguments unchanged. -/
theorem frame_kernel : Cert.frame_Kernel := fun m ρ _ => Cert.Kernel.Frame.frame m ρ

/-- So does the idealized kernel program. -/
theorem frame_kernelIdeal : Cert.frame_KernelIdeal := fun m ρ _ => Cert.KernelIdeal.Frame.frame m ρ

/-- And the reference: its run, the results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The ideal pass rewrote no operation. -/
theorem preserves : Cert.preserves_Kernel_KernelIdeal := trivial

/-- From memories agreeing on the two clouds both programs end with the two nearest-neighbour distance arrays. -/
theorem algebraic : Cert.algebraic_KernelIdeal_ReferenceIdeal := by
  intro m ρ m' ρ' _ hagree
  refine ⟨fun c => Cert.KernelIdeal.Arrays.R1 m c, fun c => Cert.KernelIdeal.Arrays.R2 m c,
    Cert.KernelIdeal.Arrays.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [Cert.ReferenceIdeal.Read.val_main_v13_eq, (hagree c).1, (hagree c).2]
    exact Cert.KernelIdeal.Arrays.result1_same m c
  · rw [Cert.ReferenceIdeal.Read.val_main_v14_eq, (hagree c).1, (hagree c).2]
    exact Cert.KernelIdeal.Arrays.result2_same m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
